-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32x128 : Shape := ⟨3, ![10000, 32, 128]⟩
abbrev S128x32 : Shape := ⟨2, ![128, 32]⟩
abbrev S160000 : Shape := ⟨1, ![160000]⟩
abbrev S_ : Shape := ⟨0, ![]⟩

class Facts : Prop where
  bcast_S_S10000x32x128 : S_.BroadcastsInDim S10000x32x128 (![] : Fin 0 → Fin S10000x32x128.rank)
  reducesTo_S10000x32x128_S_d0_1_2 : S10000x32x128.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_
  bcast_S_S160000 : S_.BroadcastsInDim S160000 (![] : Fin 0 → Fin S160000.rank)
  reducesTo_S160000_S_d0 : S160000.ReducesTo [0] S_

variable [Facts]

def fn_part1 {F : FTy → Type} [FloatOps F] (main_arg3 : IVec S160000 32) (main_v13 : IVec S_ 1) (main_v15 : IVec S160000 1) (main_c_5 : IVec S_ 1) : IVec S_ 1 :=
  let main_v16 : IVec S_ 1 := (fun x v => Host.reduce IntOp.andi x v reducesTo_S160000_S_d0 h_S_) main_v15 main_c_5
  let main_v17 : IVec S_ 1 := andi main_v13 main_v16
  let main_c_6 : IVec S_ 32 := constantI S_ 32 0#32
  let main_v18 : IVec S160000 32 := broadcastInDim S160000 ![] bcast_S_S160000 main_c_6
  let main_v19 : IVec S160000 1 := cmpi .sge main_arg3 main_v18
  let main_c_7 : IVec S_ 32 := constantI S_ 32 10000#32
  let main_v20 : IVec S160000 32 := broadcastInDim S160000 ![] bcast_S_S160000 main_c_7
  let main_v21 : IVec S160000 1 := cmpi .slt main_arg3 main_v20
  let main_v22 : IVec S160000 1 := andi main_v19 main_v21
  let main_c_8 : IVec S_ 1 := constantI S_ 1 1#1
  let main_v23 : IVec S_ 1 := (fun x v => Host.reduce IntOp.andi x v reducesTo_S160000_S_d0 h_S_) main_v22 main_c_8
  let main_v24 : IVec S_ 1 := andi main_v17 main_v23
  main_v24

def fn {F : FTy → Type} [FloatOps F] (main_arg0 : FVec F S10000x32x128 .f32) (main_arg1 : FVec F S128x32 .f32) (main_arg2 : IVec S160000 32) (main_arg3 : IVec S160000 32) (main_arg4 : FVec F S160000 .f32) : IVec S_ 1 :=
  let main_v0 : FVec F S10000x32x128 .f32 := Host.absf main_arg0
  let main_cst : FVec F S_ .f32 := constant S_ .f32 0x7F800000#32
  let main_v1 : FVec F S10000x32x128 .f32 := broadcastInDim S10000x32x128 ![] bcast_S_S10000x32x128 main_cst
  let main_v2 : IVec S10000x32x128 1 := cmpf .olt main_v0 main_v1
  let main_c : IVec S_ 1 := constantI S_ 1 1#1
  let main_v3 : IVec S_ 1 := (fun x v => Host.reduce IntOp.andi x v reducesTo_S10000x32x128_S_d0_1_2 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S160000 .f32 := Host.absf main_arg4
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_c_4 : IVec S_ 32 := constantI S_ 32 0#32
  let main_v14 : IVec S160000 32 := broadcastInDim S160000 ![] bcast_S_S160000 main_c_4
  let main_v15 : IVec S160000 1 := cmpi .sge main_arg2 main_v14
  let main_c_5 : IVec S_ 1 := constantI S_ 1 1#1
  fn_part1 (F := F) main_arg3 main_v13 main_v15 main_c_5
-- ==== Kernel.lean ====
abbrev S10000x32x128 : Shape := ⟨3, ![10000, 32, 128]⟩
abbrev S128x32 : Shape := ⟨2, ![128, 32]⟩
abbrev S160000 : Shape := ⟨1, ![160000]⟩
abbrev S320000x128 : Shape := ⟨2, ![320000, 128]⟩
abbrev S320000x32 : Shape := ⟨2, ![320000, 32]⟩
abbrev S8000x128 : Shape := ⟨2, ![8000, 128]⟩
abbrev S8000x32 : Shape := ⟨2, ![8000, 32]⟩
abbrev S10000x1024 : Shape := ⟨2, ![10000, 1024]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240x1024 : Shape := ⟨2, ![10240, 1024]⟩
abbrev S1 : Shape := ⟨1, ![1]⟩
abbrev S1024x256 : Shape := ⟨2, ![1024, 256]⟩
abbrev S1024x1024 : Shape := ⟨2, ![1024, 1024]⟩
abbrev S256x1024 : Shape := ⟨2, ![256, 1024]⟩
abbrev S10000x32x32 : Shape := ⟨3, ![10000, 32, 32]⟩

abbrev nBuf : Space → Nat
  | .hbm => 36
  | .vmem => 10
  | .smem => 0
  | _ => 0

abbrev bufTy : (tb : Table) → Fin (tcTables nBuf tb) → BufTy
  | .hbm, ⟨0, _⟩ => ⟨S10000x32x128, .f32⟩
  | .hbm, ⟨1, _⟩ => ⟨S128x32, .f32⟩
  | .hbm, ⟨2, _⟩ => ⟨S160000, .i32⟩
  | .hbm, ⟨3, _⟩ => ⟨S160000, .i32⟩
  | .hbm, ⟨4, _⟩ => ⟨S160000, .f32⟩
  | .hbm, ⟨5, _⟩ => ⟨S320000x128, .f32⟩
  | .hbm, ⟨6, _⟩ => ⟨S320000x32, .bf16⟩
  | .hbm, ⟨7, _⟩ => ⟨S10000x1024, .bf16⟩
  | .hbm, ⟨8, _⟩ => ⟨S_, .f32⟩
  | .hbm, ⟨9, _⟩ => ⟨S10240x10240, .f32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x1, .i32⟩
  | .hbm, ⟨26, _⟩ => ⟨S160000x2, .i32⟩
  | .hbm, ⟨27, _⟩ => ⟨S10240x10240, .f32⟩
  | .hbm, ⟨28, _⟩ => ⟨S_, .bf16⟩
  | .hbm, ⟨29, _⟩ => ⟨S10240x1024, .bf16⟩
  | .hbm, ⟨30, _⟩ => ⟨S_, .i32⟩
  | .hbm, ⟨31, _⟩ => ⟨S1, .i32⟩
  | .hbm, ⟨32, _⟩ => ⟨S10240x1024, .bf16⟩
  | .hbm, ⟨33, _⟩ => ⟨S10240x1024, .f32⟩
  | .hbm, ⟨34, _⟩ => ⟨S10000x1024, .f32⟩
  | .hbm, ⟨35, _⟩ => ⟨S10000x32x32, .f32⟩
  | .local _ .vmem, ⟨0, _⟩ => ⟨S8000x128, .f32⟩
  | .local _ .vmem, ⟨1, _⟩ => ⟨S8000x128, .f32⟩
  | .local _ .vmem, ⟨2, _⟩ => ⟨S128x32, .f32⟩
  | .local _ .vmem, ⟨3, _⟩ => ⟨S8000x32, .bf16⟩
  | .local _ .vmem, ⟨4, _⟩ => ⟨S8000x32, .bf16⟩
  | .local _ .vmem, ⟨5, _⟩ => ⟨S1024x256, .f32⟩
  | .local _ .vmem, ⟨6, _⟩ => ⟨S1024x256, .f32⟩
  | .local _ .vmem, ⟨7, _⟩ => ⟨S10240x1024, .bf16⟩
  | .local _ .vmem, ⟨8, _⟩ => ⟨S1024x1024, .f32⟩
  | .local _ .vmem, ⟨9, _⟩ => ⟨S1024x1024, .f32⟩
  | _, _ => ⟨S10000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 40], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S10000x32x128_S320000x128 : S10000x32x128.ShapeCasts S320000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8000x32_S8000x32_0_0 : ∀ a, (![0, 0] : Fin 2 → Nat) a + S8000x32.size a ≤ S8000x32.size a
  h_S8000x32 : 0 < S8000x32.numel
  packedbf16_S8000x32_S8000x32_0_0 : (Rect.unit (s := S8000x32) ![0, 0] S8000x32.size inb_S8000x32_S8000x32_0_0).PackedRows (EltTy.packing .bf16)
  shapeCasts_S320000x32_S10000x1024 : S320000x32.ShapeCasts S10000x1024
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S10240x1024 : S_.BroadcastsInDim S10240x1024 (![] : Fin 0 → Fin S10240x1024.rank)
  bcast_S_S1 : S_.BroadcastsInDim S1 (![] : Fin 0 → Fin S1.rank)
  inb_S1024x1024_S1024x1024_0_0 : ∀ a, (![0, 0] : Fin 2 → Nat) a + S1024x1024.size a ≤ S1024x1024.size a
  h_S1024x1024 : 0 < S1024x1024.numel
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x1024_S1024x1024 : S1024x1024.ShapeCasts S1024x1024
  slices_S10240x1024_S10000x1024_0_0 : S10240x1024.Slices ![0, 0] S10000x1024
  shapeCasts_S10000x1024_S10000x32x32 : S10000x1024.ShapeCasts S10000x32x32
  dot_S8000x128_S128x32_S8000x32_1_0_0_1_n_n_wf : DotDims.WF S8000x128 S128x32 S8000x32 [1] [0] [0] [1] [] []
  scatter_S10240x10240_S160000x2_S160000_n_01_01_1_wf : ScatterDims.WF S10240x10240 S160000x2 S160000 [] [0, 1] [0, 1] 1
  scatter_S10240x1024_S1_S10000x1024_01_n_0_0_wf : ScatterDims.WF S10240x1024 S1 S10000x1024 [0, 1] [] [0] 0
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S320000x128.size a
  hwx0_0 : ∀ i : grid0.Coords, EltTy.bits .f32 = 32 ∨ (Rect.block (s := S320000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S320000x32.size a
  hwx0_2 : ∀ i : grid0.Coords, EltTy.bits .bf16 = 32 ∨ (Rect.block (s := S320000x32) S8000x32.size (cc0_transform_2 i) (hinb0_2 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x1024.size a ≤ S10240x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S10240x10240.size a
  hwx1_0 : ∀ i : grid1.Coords, EltTy.bits .f32 = 32 ∨ (Rect.block (s := S10240x10240) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x1024.size a ≤ S10240x1024.size a
  hwx1_1 : ∀ i : grid1.Coords, EltTy.bits .bf16 = 32 ∨ (Rect.block (s := S10240x1024) S10240x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S10240x1024.size a
  hwx1_2 : ∀ i : grid1.Coords, EltTy.bits .f32 = 32 ∨ (Rect.block (s := S10240x1024) S1024x1024.size (cc1_transform_2 i) (hinb1_2 i)).WholeWords (EltTy.packing .f32)

variable [Facts₀]

def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240x1024_S1_S10000x1024_01_n_0_0 : ScatterDims S10240x1024 S1 S10000x1024 where
  updateWindowDims := [0, 1]
  insertedWindowDims := []
  scatterDimsToOperandDims := [0]
  indexVectorDim := 0
  wf := scatter_S10240x1024_S1_S10000x1024_01_n_0_0_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10240x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x32x128 : Shape := ⟨3, ![10000, 32, 128]⟩
abbrev S128x32 : Shape := ⟨2, ![128, 32]⟩
abbrev S160000 : Shape := ⟨1, ![160000]⟩
abbrev S10000x32x32 : Shape := ⟨3, ![10000, 32, 32]⟩
abbrev S_ : Shape := ⟨0, ![]⟩
abbrev S160000x1 : Shape := ⟨2, ![160000, 1]⟩
abbrev S160000x32x32 : Shape := ⟨3, ![160000, 32, 32]⟩
abbrev S160000x1x1 : Shape := ⟨3, ![160000, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S10000x32x128, .f32⟩
  | .hbm, ⟨1, _⟩ => ⟨S128x32, .f32⟩
  | .hbm, ⟨2, _⟩ => ⟨S160000, .i32⟩
  | .hbm, ⟨3, _⟩ => ⟨S160000, .i32⟩
  | .hbm, ⟨4, _⟩ => ⟨S160000, .f32⟩
  | .hbm, ⟨5, _⟩ => ⟨S10000x32x32, .f32⟩
  | .hbm, ⟨6, _⟩ => ⟨S_, .i32⟩
  | .hbm, ⟨7, _⟩ => ⟨S160000, .i32⟩
  | .hbm, ⟨8, _⟩ => ⟨S160000, .i1⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000x32x32, .f32⟩
  | .hbm, ⟨15, _⟩ => ⟨S160000x1x1, .f32⟩
  | .hbm, ⟨16, _⟩ => ⟨S160000x32x32, .f32⟩
  | .hbm, ⟨17, _⟩ => ⟨S160000x32x32, .f32⟩
  | .hbm, ⟨18, _⟩ => ⟨S_, .f32⟩
  | .hbm, ⟨19, _⟩ => ⟨S10000x32x32, .f32⟩
  | .hbm, ⟨20, _⟩ => ⟨S160000x1, .i32⟩
  | .hbm, ⟨21, _⟩ => ⟨S10000x32x32, .f32⟩
  | .hbm, ⟨22, _⟩ => ⟨S_, .f32⟩
  | .hbm, ⟨23, _⟩ => ⟨S10000x32x32, .f32⟩
  | .hbm, ⟨24, _⟩ => ⟨S10000x32x32, .f32⟩
  | _, _ => ⟨S10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000_S160000x1x1_0 : S160000.BroadcastsInDim S160000x1x1 (![0] : Fin 1 → Fin S160000x1x1.rank)
  bcast_S160000x1x1_S160000x32x32_0_1_2 : S160000x1x1.BroadcastsInDim S160000x32x32 (![0, 1, 2] : Fin 3 → Fin S160000x32x32.rank)
  bcast_S_S10000x32x32 : S_.BroadcastsInDim S10000x32x32 (![] : Fin 0 → Fin S10000x32x32.rank)
  dot_S10000x32x128_S128x32_S10000x32x32_2_0_01_1_n_n_wf : DotDims.WF S10000x32x128 S128x32 S10000x32x32 [2] [0] [0, 1] [1] [] []
  gather_S10000x32x32_S160000x1_S160000x32x32_12_0_n_n_0_1_13232_wf : GatherDims.WF S10000x32x32 S160000x1 S160000x32x32 [1, 2] [0] [] [0] [] 1 ![1, 32, 32]
  scatter_S10000x32x32_S160000x1_S160000x32x32_12_0_0_1_wf : ScatterDims.WF S10000x32x32 S160000x1 S160000x32x32 [1, 2] [0] [0] 1

variable [Facts₀]

def dot_S10000x32x128_S128x32_S10000x32x32_2_0_01_1_n_n : DotDims S10000x32x128 S128x32 S10000x32x32 where
  lhsContracting := [2]
  rhsContracting := [0]
  lhsNonContracting := [0, 1]
  rhsNonContracting := [1]
  lhsBatch := []
  rhsBatch := []
  wf := dot_S10000x32x128_S128x32_S10000x32x32_2_0_01_1_n_n_wf
def gather_S10000x32x32_S160000x1_S160000x32x32_12_0_n_n_0_1_13232 : GatherDims S10000x32x32 S160000x1 S160000x32x32 where
  offsetDims := [1, 2]
  collapsedSliceDims := [0]
  operandBatchingDims := []
  startIndicesBatchingDims := []
  startIndexMap := [0]
  indexVectorDim := 1
  sliceSizes := ![1, 32, 32]
  wf := gather_S10000x32x32_S160000x1_S160000x32x32_12_0_n_n_0_1_13232_wf
def scatter_S10000x32x32_S160000x1_S160000x32x32_12_0_0_1 : ScatterDims S10000x32x32 S160000x1 S160000x32x32 where
  updateWindowDims := [1, 2]
  insertedWindowDims := [0]
  scatterDimsToOperandDims := [0]
  indexVectorDim := 1
  wf := scatter_S10000x32x32_S160000x1_S160000x32x32_12_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Fin

/-!
# The graph convolution as one function of the argument arrays

Nodes n < 10000, samples k < 32, input features d < 128, output features e < 32, edges j < 160000 carrying a
row index, a column index and a weight.

* feat x w n k e = ∑ d, x(n,k,d) · w(d,e): the dense product.
* G x w row col val (n,k,e) = max (0 + ∑ over the edges j whose row index is n of feat(col j, k, e) · val j) 0:
  the aggregation over incoming edges, then the rectifier.

The second arrangement computes the same number through the dense adjacency matrix
A(r,c) = 0 + ∑ over the edges j with row j = r and col j = c of val j, as the product A · H summed in 40 column blocks of
256 from zero, H the dense product padded with zero rows from 10000 to 10240.
-/

noncomputable section

open scoped BigOperators

namespace Cert.Spec

open Idealize.ShloMosaic Idealize.ShloMosaic.ValueIdx Finset

abbrev SX : Shape := ⟨3, ![10000, 32, 128]⟩
abbrev SW : Shape := ⟨2, ![128, 32]⟩
abbrev SE : Shape := ⟨1, ![160000]⟩
abbrev SO : Shape := ⟨3, ![10000, 32, 32]⟩
abbrev SF : Shape := ⟨2, ![320000, 32]⟩
abbrev SA : Shape := ⟨2, ![10240, 10240]⟩
abbrev SH : Shape := ⟨2, ![10240, 1024]⟩

/-- The dense product at node n, sample k, output feature e. -/
def feat (x : SX.Idx → EReal) (w : SW.Idx → EReal) (n : Fin 10000) (k e : Fin 32) : EReal :=
  ∑ d : Fin 128, x (ix3 n k d) * w (ix2 d e)

/-- The dense product as the first kernel lays it out: row p = 32 n + k of a 320000 × 32 matrix. -/
def featFlat (x : SX.Idx → EReal) (w : SW.Idx → EReal) : SF.Idx → EReal := fun i =>
  feat x w ⟨(i 0).val / 32, by have h : (i 0).val < 320000 := (i 0).isLt; show _ < 10000; omega⟩
    ⟨(i 0).val % 32, Nat.mod_lt _ (by decide)⟩ (i 1)

/-- An edge's column index as a node (read unsigned, reduced into range: inside the range it is the index). -/
def cix (col : SE.Idx → BitVec 32) (j : Fin 160000) : Fin 10000 :=
  ⟨(col (ix1 j)).toInt.toNat % 10000, Nat.mod_lt _ (by decide)⟩

/-- The edges whose row index is n. -/
def inEdges (row : SE.Idx → BitVec 32) (n : ℕ) : Finset (Fin 160000) :=
  univ.filter fun j => (row (ix1 j)).toInt = (n : ℤ)

/-- The edges from column c into row r. -/
def cellEdges (row col : SE.Idx → BitVec 32) (r c : ℕ) : Finset (Fin 160000) :=
  univ.filter fun j => (row (ix1 j)).toInt = (r : ℤ) ∧ (col (ix1 j)).toInt = (c : ℤ)

/-- The result: incoming messages summed from zero, then the rectifier. -/
def G (x : SX.Idx → EReal) (w : SW.Idx → EReal) (row col : SE.Idx → BitVec 32) (val : SE.Idx → EReal) :
    SO.Idx → EReal := fun i =>
  max (0 + ∑ j ∈ inEdges row (i 0).val, feat x w (cix col j) (i 1) (i 2) * val (ix1 j)) 0

/-- The dense adjacency matrix. -/
def adj (row col : SE.Idx → BitVec 32) (val : SE.Idx → EReal) : SA.Idx → EReal := fun i =>
  0 + ∑ j ∈ cellEdges row col (i 0).val (i 1).val, val (ix1 j)

/-- The dense product as a 10000 × 1024 matrix (column 32 k + e), padded with zero rows to 10240. -/
def hpad (f : SF.Idx → EReal) : SH.Idx → EReal := fun i =>
  if h : (i 0).val < 10000 then
    f (ix2 ⟨(i 0).val * 32 + (i 1).val / 32, by have h1 : (i 1).val < 1024 := (i 1).isLt; show _ < 320000; omega⟩
      ⟨(i 1).val % 32, Nat.mod_lt _ (by decide)⟩)
  else 0

/-- Column c' of column block k (the index reduced into range: for k < 40 it is 256 k + c'). -/
def kc (k : ℕ) (c' : Fin 256) : Fin 10240 := ⟨(256 * k + c'.val) % 10240, Nat.mod_lt _ (by decide)⟩

/-- One column block's share of entry (r, j) of A · H. -/
def blkdot (A : SA.Idx → EReal) (H : SH.Idx → EReal) (r : Fin 10240) (j : Fin 1024) (k : ℕ) : EReal :=
  ∑ c' : Fin 256, A (ix2 r (kc k c')) * H (ix2 (kc k c') j)

/-- The ordered sum from zero: ((0 + f 0) + f 1) + … + f n. -/
def osum (f : ℕ → EReal) : ℕ → EReal
  | 0 => 0 + f 0
  | n + 1 => osum f n + f (n + 1)

/-- The second kernel's result: entry (r, j) of A · H accumulated block by block from zero, then the rectifier. -/
def mm (A : SA.Idx → EReal) (H : SH.Idx → EReal) : SH.Idx → EReal := fun i =>
  max (osum (blkdot A H (i 0) (i 1)) 39) 0

/-- The ordered sum is the sum. -/
theorem osum_eq (f : ℕ → EReal) (n : ℕ) : osum f n = ∑ k ∈ range (n + 1), f k := by
  induction n with
  | zero => simp [osum]
  | succ n ih => rw [osum, ih, Finset.sum_range_succ _ (n + 1)]

end Cert.Spec

end
-- ==== Proof.KArr.lean ====
import proofs.«426724_j25752623907270_3_alg».proof.Proof.Gen.KernelIdeal.Frame
import proofs.«426724_j25752623907270_3_alg».proof.Proof.Spec

/-!
# The arrays of the kernel program, named at their literal types, over the extended reals

From the launch memory m: the five argument arrays; the first kernel's result array (the dense product, flat); the
second kernel's two operand arrays as the host operations between the kernels leave them (the dense adjacency matrix
and the padded dense product); the second kernel's result array.
-/

noncomputable section

namespace Cert.KernelIdeal.KV

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

abbrev X (c : Dev nD) : Cert.Spec.SX.Idx → EReal := m ((c.tc : Thread nD τ).loc main_arg0)
abbrev Wt (c : Dev nD) : Cert.Spec.SW.Idx → EReal := m ((c.tc : Thread nD τ).loc main_arg1)
abbrev Row (c : Dev nD) : Cert.Spec.SE.Idx → BitVec 32 := m ((c.tc : Thread nD τ).loc main_arg2)
abbrev Col (c : Dev nD) : Cert.Spec.SE.Idx → BitVec 32 := m ((c.tc : Thread nD τ).loc main_arg3)
abbrev Val (c : Dev nD) : Cert.Spec.SE.Idx → EReal := m ((c.tc : Thread nD τ).loc main_arg4)

/-- The first kernel's result array after its run: the dense product, 320000 × 32. -/
abbrev H1 (c : Dev nD) : Cert.Spec.SF.Idx → EReal := (dat0 (V1 m ρ) c).arrAt 2 cfg0.N
/-- The dense adjacency matrix as the second kernel finds it. -/
abbrev Amat (c : Dev nD) : Cert.Spec.SA.Idx → EReal := V3 m ρ c main_v17
/-- The padded dense product as the second kernel finds it. -/
abbrev Hmat (c : Dev nD) : Cert.Spec.SH.Idx → EReal := V3 m ρ c main_v20
/-- The second kernel's result array after its run. -/
abbrev O1 (c : Dev nD) : Cert.Spec.SH.Idx → EReal := (dat1 (V3 m ρ) c).arrAt 2 cfg1.N

end Cert.KernelIdeal.KV

end
-- ==== Proof.LibConv.lean ====
import Idealize.ShloMosaic.Lib.ValueLayout
import Idealize.ShloMosaic.Lib.StackMember
import Mathlib.Algebra.BigOperators.Fin

/-!
# Layout operations of a block-window convolution body, read at coordinates

What every convolution body of the two programs does around its matrix products, for arrays of any extents: a
three-axis array flattened to a matrix and back (row `y · B + x`), a weight piece `[1, 1, a, b]` read as the matrix
`[a, b]`, the bias row laid along every row, the matrix product with the plain dimension numbers into the zero matrix
as a sum over the contracted coordinate, and a sum over `Fin K` as a sum over `range K`.
-/

namespace Cert.LibConv

open Idealize.ShloMosaic Idealize.ShloMosaic.ValueIdx
open Finset

section Layout
variable {α : Type}

/-- An A × B × C array flattened to M × C (M = A · B) reads, at row `m = y · B + x` and column `k`, the array at
    `(y, x, k)`: both have the same place in row-major order. -/
theorem flatten3_apply {A B C M : ℕ} (v : (⟨3, ![A, B, C]⟩ : Shape).Idx → α)
    (h : (⟨3, ![A, B, C]⟩ : Shape).ShapeCasts ⟨2, ![M, C]⟩) (y : Fin A) (x : Fin B) (k : Fin C) (m : Fin M)
    (hm : m.val = y.val * B + x.val) :
    shapeCast ⟨2, ![M, C]⟩ v h (ix2 m k) = v (ix3 y x k) :=
  shapeCast_apply v h _ _ (by
    rw [Shape.rowMajor_val_three, Shape.rowMajor_val_two]
    show (y.val * B + x.val) * C + k.val = m.val * C + k.val
    rw [hm])

/-- An M × C matrix (M = A · B) read as an A × B × C array: at `(y, x, k)` it is the matrix at row
    `m = y · B + x`, column `k`. -/
theorem unflatten3_apply {A B C M : ℕ} (v : (⟨2, ![M, C]⟩ : Shape).Idx → α)
    (h : (⟨2, ![M, C]⟩ : Shape).ShapeCasts ⟨3, ![A, B, C]⟩) (y : Fin A) (x : Fin B) (k : Fin C) (m : Fin M)
    (hm : m.val = y.val * B + x.val) :
    shapeCast ⟨3, ![A, B, C]⟩ v h (ix3 y x k) = v (ix2 m k) :=
  shapeCast_apply v h _ _ (by
    rw [Shape.rowMajor_val_three, Shape.rowMajor_val_two]
    show m.val * C + k.val = (y.val * B + x.val) * C + k.val
    rw [hm])

/-- A `[1, 1, a, b]` array read as the matrix `[a, b]`: at `(i, j)` it is the array at `(0, 0, i, j)`. -/
theorem shapeCast_11ab_ab_apply {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- The bias row `[1, 1, b]`, read as `[1, b]` and laid along each of `a` rows: at `(p, n)` it is the row's
    entry `n`. -/
theorem biasRows_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ (shapeCast ⟨2, ![1, b]⟩ v h1) h2) hb (ix2 p n)
      = v (ix3 (0 : Fin 1) (0 : Fin 1) n) := by
  rw [broadcastTo_1b_ab_apply, shapeCast_self, shapeCast_1ab_ab_apply]

end Layout

/-- A product with the plain dimension numbers of an M × K by K × N product, accumulated into the zero matrix, read at
    `(m, n)`: the sum over the contracted coordinate. -/
theorem matmul_plain_zero_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (m : Fin M)
    (n : Fin N) :
    matmul D none A B (constant (F := Ideal) ⟨2, ![M, N]⟩ .f32 0x00000000#32) (ix2 m n)
      = ∑ k : Fin K, A (ix2 m k) * B (ix2 k n) := by
  subst hD
  rw [matmul_zero_eq_dotGeneral]
  exact StackMember.dotGeneral_plain_apply none A B m n

/-- A sum over `Fin K` whose terms are a function of the coordinate's value is the sum over `range K`. -/
theorem sum_fin {K : ℕ} (f : Fin K → EReal) (g : ℕ → EReal) (h : ∀ k : Fin K, f k = g k.val) :
    ∑ k : Fin K, f k = ∑ k ∈ range K, g k :=
  (Finset.sum_congr rfl fun k _ => h k).trans (Fin.sum_univ_eq_sum_range g K)

end Cert.LibConv
-- ==== Proof.R0Value.lean ====
import proofs.«426724_j25752623907270_3_alg».proof.Proof.KArr
import proofs.«426724_j25752623907270_3_alg».proof.Proof.LibConv
import Idealize.ShloMosaic.Lib.Pipeline.Value
import Idealize.ShloMosaic.PureOps.Ideal.Laws

/-!
# The first kernel's result array is the dense product

Forty row blocks of 8000: block t of the 320000 × 32 result is the product of block t of the flattened input with the
whole weight matrix, so the array ends holding, at row p = 32 n + k and column e, the sum over d of x(n,k,d) · w(d,e).
-/

noncomputable section

open scoped BigOperators

namespace Cert.KernelIdeal.R0Value

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flattened input as region 0 finds it: the one host operation before the region reshapes x to 320000 × 128. -/
private theorem v0_eq (c : Dev nD) :
    (V1 m ρ c main_v0 : S320000x128.Idx → EReal) = shapeCast S320000x128 (X m c) shapeCasts_S10000x32x128_S320000x128 := by
  show StableHlo.after hostOps0 (W0 m ρ c) (Proc.devRef .tc main_v0) = _
  after_results
  rfl

/-- The weight matrix as region 0 finds it: the host operation before the region does not write it. -/
private theorem w_eq (c : Dev nD) : (V1 m ρ c main_arg1 : S128x32.Idx → EReal) = Wt m c := by
  show StableHlo.after hostOps0 (W0 m ρ c) (Proc.devRef .tc main_arg1) = _
  after_results

/-- The printed dimension numbers of the body's product are the plain ones of an 8000 × 128 by 128 × 32 product. -/
private theorem dot_plain : dot_S8000x128_S128x32_S8000x32_1_0_0_1_n_n = DotDims.plain 8000 128 32 := rfl

/-- The body's result at row r, column e: the truncations are the identity, the product into the zero matrix is the sum over
    the contracted coordinate. -/
private theorem pay_apply (x0 : Vec Ideal S8000x128 .f32) (x1 : Vec Ideal S128x32 .f32) (r : Fin 8000) (e : Fin 32) :
    (k0_pay1 (F := Ideal) x0 x1) (ix2 r e) = ∑ d : Fin 128, x0 (ix2 r d) * x1 (ix2 d e) := by
  unfold k0_pay1
  rw [truncf_apply]
  refine (Cert.LibConv.matmul_plain_zero_apply _ dot_plain _ _ r e).trans ?_
  refine Finset.sum_congr rfl fun d _ => ?_
  rw [truncf_apply, truncf_apply, shapeCast_self]

/-- The zero offsets of a whole-block access, however the two zeros are spelt. -/
private theorem hz : (![0, 0] : Fin 2 → Nat) = fun _ => 0 := funext fun a => by fin_cases a <;> rfl

/-- The printed index maps over the grid: the input's and the result's row block is the point's number, every other block
    index is zero. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point's block at a row and a column. If the input block holds rows T · 8000 … T · 8000 + 7999 of the flattened x
    and the weight block is the weight matrix, the body's result at (r, e) is the dense product at flat row
    p = T · 8000 + r: node p / 32, sample p % 32. -/
private theorem point_apply (xs : Cert.Spec.SX.Idx → EReal) (w : Cert.Spec.SW.Idx → EReal)
    (x0 : Vec Ideal S8000x128 .f32) (x1 : Vec Ideal S128x32 .f32) (T : ℕ)
    (h0 : ∀ (r : Fin 8000) (d : Fin 128) (p : Fin 320000), p.val = T * 8000 + r.val →
      x0 (ix2 r d) = shapeCast S320000x128 xs shapeCasts_S10000x32x128_S320000x128 (ix2 p d))
    (h1 : ∀ (d : Fin 128) (e : Fin 32), x1 (ix2 d e) = w (ix2 d e))
    (j : S8000x32.Idx) (i : Cert.Spec.SF.Idx) (hi0 : (i 0).val = T * 8000 + (j 0).val) (hi1 : (i 1).val = (j 1).val) :
    k0_pay1 (F := Ideal) x0 x1 j = Cert.Spec.featFlat xs w i := by
  obtain ⟨r, e, rfl⟩ : ∃ (r : Fin 8000) (e : Fin 32), j = ix2 r e := ⟨j 0, j 1, eq_ix2 j⟩
  obtain ⟨p, e', rfl⟩ : ∃ (p : Fin 320000) (e' : Fin 32), i = ix2 p e' := ⟨i 0, i 1, eq_ix2 i⟩
  have hp : p.val = T * 8000 + r.val := hi0
  obtain rfl : e = e' := (Fin.ext hi1).symm
  rw [pay_apply]
  unfold Cert.Spec.featFlat Cert.Spec.feat
  refine Finset.sum_congr rfl fun d _ => ?_
  rw [h0 r d p hp, h1 d e]
  refine congrArg₂ (· * ·) ?_ rfl
  exact Cert.LibConv.flatten3_apply xs shapeCasts_S10000x32x128_S320000x128 _ _ d p (by
    show p.val = p.val / 32 * 32 + p.val % 32
    omega)

/-- What point t writes back is block t of the dense product: its input block is rows t · 8000 … of the flattened x, its
    weight block the whole weight matrix, its result block rows t · 8000 … of the result. -/
private theorem flushed_eq (c : Dev nD) (t : Fin cfg0.N) :
    (dat0 (V1 m ρ) c).flushed 2 t = ((cfg0.win 2).blk t).view.read (Elt Ideal) (Cert.Spec.featFlat (X m c) (Wt m c)) := by
  show (cfg0.win 2).cut (grid0.coords t) ((dat0 (V1 m ρ) c).after 2 t) = _
  rw [after0_2]
  unfold out0_2
  rw [View.canon_unit_zero hz]
  simp only [View.ld_unit_zero (S := S8000x128) hz, View.ld_unit_zero (S := S128x32) hz]
  funext j
  obtain ⟨e0, e1, e2, e3, e4, e5⟩ := idx_facts t
  show k0_pay1 (F := Ideal) (iblk0 (V1 m ρ) c 0 t) (iblk0 (V1 m ρ) c 1 t) j
    = Cert.Spec.featFlat (X m c) (Wt m c) (((cfg0.win 2).blk t).view.emb j)
  refine point_apply (X m c) (Wt m c) (iblk0 (V1 m ρ) c 0 t) (iblk0 (V1 m ρ) c 1 t) t.val ?_ ?_ j
    (((cfg0.win 2).blk t).view.emb j) ?_ ?_
  · intro r d p hp
    show V1 m ρ c main_v0 (((cfg0.win 0).blk t).view.emb (ix2 r d)) = _
    rw [v0_eq]
    congr 1
    funext a; apply Fin.ext
    match a with
    | ⟨0, _⟩ => show win0_0.index t (0 : Fin 2) * 8000 + 1 * r.val = p.val; rw [e0, hp]; omega
    | ⟨1, _⟩ => show win0_0.index t (1 : Fin 2) * 128 + 1 * d.val = d.val; rw [e1]; omega
  · intro d e
    show V1 m ρ c main_arg1 (((cfg0.win 1).blk t).view.emb (ix2 d e)) = _
    rw [w_eq]
    congr 1
    funext a; apply Fin.ext
    match a with
    | ⟨0, _⟩ => show win0_1.index t (0 : Fin 2) * 128 + 1 * d.val = d.val; rw [e2]; omega
    | ⟨1, _⟩ => show win0_1.index t (1 : Fin 2) * 32 + 1 * e.val = e.val; rw [e3]; omega
  · show win0_2.index t (0 : Fin 2) * 8000 + 1 * (j 0).val = t.val * 8000 + (j 0).val; rw [e4]; omega
  · show win0_2.index t (1 : Fin 2) * 32 + 1 * (j 1).val = (j 1).val; rw [e5]; omega

/-- An index of the result array lies in point t's block iff each coordinate lies in the block's range on its axis. -/
private theorem mem_blk (t : Fin cfg0.N) (i : S320000x32.Idx) :
    i ∈ ((cfg0.win 2).blk t).view.set ↔ ∀ a : Fin 2, win0_2.index t a * S8000x32.size a ≤ (i a).val
      ∧ (i a).val < win0_2.index t a * S8000x32.size a + S8000x32.size a := by
  show i ∈ ((View.whole main_v1).slice (win0_2.rect t)).set ↔ _
  rw [View.set_slice_whole, Rect.mem_set_unit]
  exact Iff.rfl

/-- Row p of the result lies in the block of point p / 8000, and every point writes its block back. -/
private theorem cover (i : S320000x32.Idx) :
    ∃ t : Fin cfg0.N, (cfg0.win 2).flush t = true ∧ i ∈ ((cfg0.win 2).blk t).view.set := by
  have hi0 : (i 0).val < 320000 := (i 0).isLt
  have hi1 : (i 1).val < 32 := (i 1).isLt
  have hN : cfg0.N = 40 := N_0
  have hlt : (i 0).val / 8000 < cfg0.N := by rw [hN]; omega
  obtain ⟨-, -, -, -, e4, e5⟩ := idx_facts ⟨(i 0).val / 8000, hlt⟩
  have e4' : win0_2.index ⟨(i 0).val / 8000, hlt⟩ (0 : Fin 2) = (i 0).val / 8000 := e4
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val
      ∧ (i 0).val < win0_2.index ⟨(i 0).val / 8000, hlt⟩ (0 : Fin 2) * 8000 + 8000
    rw [e4']; omega
  | ⟨1, _⟩ =>
    show win0_2.index ⟨(i 0).val / 8000, hlt⟩ (1 : Fin 2) * 32 ≤ (i 1).val
      ∧ (i 1).val < win0_2.index ⟨(i 0).val / 8000, hlt⟩ (1 : Fin 2) * 32 + 32
    rw [e5]; omega

/-- The first kernel's result array after its run is the dense product, laid out flat. -/
theorem final0 (c : Dev nD) : H1 m ρ c = Cert.Spec.featFlat (X m c) (Wt m c) := by
  exact (dat0 (V1 m ρ) c).arrAt_eq_of_cover 2 (Cert.Spec.featFlat (X m c) (Wt m c)) (fun t _ => flushed_eq m ρ c t) cover

end Cert.KernelIdeal.R0Value

end
-- ==== Proof.Host1.lean ====
import proofs.«426724_j25752623907270_3_alg».proof.Proof.KArr
import Idealize.ShloMosaic.Lib.StableHlo.Run
import Idealize.ShloMosaic.Lib.StableHlo.Predicate
import Idealize.ShloMosaic.Lib.Pipeline.Value
import Idealize.ShloMosaic.Lib.ValueIdxRank1

/-!
# The host operations between the two kernels: the dense adjacency matrix

The scatter-add of the edge weights into the zero 10240 × 10240 matrix at (row, column) is the dense adjacency matrix:
where no index is negative the wrap-around of negative indices is the identity, and an entry is zero plus the sum of the
weights of the edges that name it.
-/

noncomputable section

open scoped BigOperators

namespace Cert.KernelIdeal.Host1

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The scatter's result index

The scatter's dimension numbers name both axes of the matrix by the two components of an edge's index pair and leave no
window axis: edge p lands at (r, c') exactly when the pair at row p of the index array, read signed, is (r, c'). -/

/-- The scatter's dimension numbers: both operand axes are named by the index vector, no window axis. -/
private abbrev dA : ScatterDims S10240x10240 S160000x2 S160000 := scatter_S10240x10240_S160000x2_S160000_n_01_01_1

/-- An update lands at `i` exactly when, on every axis, its start plus its window coordinate is `i`'s coordinate. -/
private theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  split
  · next h =>
    constructor
    · intro e a
      have e' := congrFun (Option.some.inj e) a
      have := congrArg Fin.val e'
      have h1 := (h a).1
      simp only at this
      omega
    · intro e
      refine congrArg some (funext fun a => Fin.ext ?_)
      have := e a
      show (d.start j idx a + (d.window j a : ℤ)).toNat = (i a).val
      omega
  · next h =>
    constructor
    · intro e; cases e
    · intro e
      refine absurd (fun a => ?_) h
      have := e a
      have := (i a).isLt
      constructor <;> omega

/-- No axis of the matrix is a window axis: the window coordinate is zero on both. -/
private theorem window_eq (j : S160000.Idx) (a : Fin 2) : dA.window j a = 0 := by
  unfold ScatterDims.window
  rw [dif_neg (by revert a; decide)]

/-- On axis `a` edge p starts at component `a` of its index pair, read signed. -/
private theorem start_eq (p : Fin 160000) (idx : IVec S160000x2 32) (a : Fin 2) :
    dA.start (ix1 p) idx a = (idx (ix2 p a)).toInt := by
  unfold ScatterDims.start
  have ha : a ∈ dA.scatterDimsToOperandDims := by revert a; decide
  rw [dif_pos ha]
  refine congrArg (fun k => (idx k).toInt) (funext fun b => ?_)
  match b with
  | ⟨0, _⟩ =>
    -- the edge's own coordinate: the index array's axis 0 is the updates' one axis
    unfold ScatterDims.siIdx
    rw [dif_neg (by show ¬ (0 : ℕ) = dA.indexVectorDim; decide)]
    unfold ScatterDims.siCoord
    apply Fin.ext
    simp only [Fin.val_cast]
    have e : ∀ X : Fin 1, ((ix1 p : S160000.Idx) X).val = p.val := fun X => by
      have hX : X = 0 := Subsingleton.elim _ _
      subst hX; rfl
    exact e _
  | ⟨1, _⟩ =>
    -- the index vector's axis: operand axis `a` is component `a`
    unfold ScatterDims.siIdx
    rw [dif_pos (by show (1 : ℕ) = dA.indexVectorDim; decide)]
    apply Fin.ext
    show List.idxOf a dA.scatterDimsToOperandDims = a.val
    revert a; decide

/-! ## The index array and the zero matrix, read at an index -/

/-- Where the index is not negative the wrap-around of a negative index is the identity. -/
private theorem wrap_apply (r : S160000.Idx → BitVec 32) (j : S160000.Idx) (h : 0 ≤ (r j).toInt) :
    select (cmpi .slt r (broadcastInDim S160000 ![] bcast_S_S160000 (constantI S_ 32 0#32)))
      (addi r (broadcastInDim S160000 ![] bcast_S_S160000 (constantI S_ 32 10240#32))) r j = r j := by
  have hlt : (r j).slt 0#32 = false := by
    simp only [BitVec.slt, BitVec.toInt_zero, decide_eq_false_iff_not, Int.not_lt]
    exact h
  show (if BitVec.ofBool ((r j).slt 0#32) = 1 then _ else _) = _
  rw [hlt]
  rfl

/-- A vector as a 160000 × 1 column reads, at (p, 0), the vector at p. -/
private theorem col_apply {α : Type} (v : S160000.Idx → α) (p : Fin 160000) :
    broadcastInDim S160000x1 ![0] bcast_S160000_S160000x1_0 v (ix2 p (0 : Fin 1)) = v (ix1 p) :=
  broadcastInDim_apply ![0] bcast_S160000_S160000x1_0 v (ix2 p (0 : Fin 1)) (ix1 p) (fun a => by
    match a with
    | ⟨0, _⟩ => rfl)

/-- Two columns laid side by side read, at (p, 0), the first column at (p, 0) … -/
private theorem cat_apply0 {α : Type} (x₁ x₂ : S160000x1.Idx → α) (p : Fin 160000) :
    concatenate S160000x2 1 [⟨S160000x1, x₁⟩, ⟨S160000x1, x₂⟩] concatenates_S160000x1_S160000x1_S160000x2_d1
      (ix2 p (0 : Fin 2)) = x₁ (ix2 p (0 : Fin 1)) :=
  concatenate_pair_apply_left 1 x₁ x₂ concatenates_S160000x1_S160000x1_S160000x2_d1 (ix2 p (0 : Fin 2)) rfl
    (ix2 p (0 : Fin 1)) (fun b => by
      match b with
      | ⟨0, _⟩ => rfl
      | ⟨1, _⟩ => rfl)

/-- … and, at (p, 1), the second column at (p, 0). -/
private theorem cat_apply1 {α : Type} (x₁ x₂ : S160000x1.Idx → α) (p : Fin 160000) :
    concatenate S160000x2 1 [⟨S160000x1, x₁⟩, ⟨S160000x1, x₂⟩] concatenates_S160000x1_S160000x1_S160000x2_d1
      (ix2 p (1 : Fin 2)) = x₂ (ix2 p (0 : Fin 1)) :=
  concatenate_pair_apply_right 1 x₁ x₂ concatenates_S160000x1_S160000x1_S160000x2_d1 (ix2 p (1 : Fin 2)) rfl rfl
    (ix2 p (0 : Fin 1)) (fun b hb => by
      match b with
      | ⟨0, _⟩ => rfl
      | ⟨1, _⟩ => exact absurd rfl hb) rfl

/-- The matrix the scatter starts from is zero everywhere. -/
private theorem zeros_apply (i : S10240x10240.Idx) :
    broadcastInDim S10240x10240 ![] bcast_S_S10240x10240 (constant (F := Ideal) S_ .f32 0x00000000#32) i = 0 := by
  show Ideal.ofBits .f32 0x00000000#32 = 0
  exact Ideal.ofBits_zero_f32

/-! ## The scatter-add is the dense adjacency matrix -/

/-- Scatter-adding the weights into a zero matrix at the (row, column) pairs the index array's two columns give is the
    dense adjacency matrix: entry (r, c') is zero plus the sum of the weights of the edges whose pair is (r, c'). The
    sum over the edge array's indices is the sum over the edge numbers, an index being its one coordinate. -/
private theorem scatterAdd_adj (row col : S160000.Idx → BitVec 32) (val : FVec Ideal S160000 .f32)
    (x : FVec Ideal S10240x10240 .f32) (idx : IVec S160000x2 32) (hx : ∀ i, x i = 0)
    (h0 : ∀ p : Fin 160000, idx (ix2 p (0 : Fin 2)) = row (ix1 p))
    (h1 : ∀ p : Fin 160000, idx (ix2 p (1 : Fin 2)) = col (ix1 p)) :
    Host.scatterAdd (F := Ideal) dA x idx val = Cert.Spec.adj row col val := by
  funext i
  obtain ⟨r, c', rfl⟩ : ∃ (r c' : Fin 10240), i = ix2 r c' := ⟨i 0, i 1, eq_ix2 i⟩
  unfold Host.scatterAdd
  rw [Ideal.hostScatterAdd_def]
  unfold Ideal.hostScatterAdd Cert.Spec.adj
  rw [hx]
  refine congrArg (fun t => (0 : EReal) + t) ?_
  refine Finset.sum_equiv idxEquiv1 (fun j => ?_) (fun j _ => congrArg val (eq_ix1 j))
  obtain ⟨p, rfl⟩ : ∃ p : Fin 160000, j = ix1 p := ⟨j 0, eq_ix1 j⟩
  unfold Cert.Spec.cellEdges
  simp only [Finset.mem_filter, Finset.mem_univ, true_and]
  rw [resultIdx?_eq_some_iff]
  simp only [start_eq, window_eq, Nat.cast_zero, add_zero]
  rw [Fin.forall_fin_two, h0, h1]
  exact Iff.rfl

/-! ## The edge arrays as the host operations find them -/

/-- A buffer that is no array of the first kernel and is not written by the reshape before it holds, when the first
    kernel has run, what it held at launch. -/
private theorem W2_of_untouched (c : Dev nD) (b : Ref sig .tc) (hb : ∀ w, Pipeline.arrRef spec0 w ≠ b)
    (h0 : b ≠ main_v0) : W2 m ρ c (Proc.devRef .tc b) = m ((c : Thread nD τ).loc b) :=
  calc W2 m ρ c (Proc.devRef .tc b)
    _ = W1 m ρ c (Proc.devRef .tc b) := W2_of_ne m ρ c b hb
    _ = W0 m ρ c (Proc.devRef .tc b) :=
        StableHlo.after_of_forall_not_mem (b := Proc.devRef .tc b) _ _ (List.forall_iff_forall_mem.mp (by
          simp only [hostOps0, List.Forall, StableHlo.reshape_writes, Finset.mem_singleton]
          exact StableHlo.devRef_ne_of_ne h0))
    _ = m ((c : Thread nD τ).loc b) := rfl

/-- The adjacency operand of the second kernel is the dense adjacency matrix of the edge list, when no row or
    column index is negative. -/
theorem adj_eq (c : Dev nD) (hrow : ∀ j, 0 ≤ (Row m c j).toInt) (hcol : ∀ j, 0 ≤ (Col m c j).toInt) :
    Amat m ρ c = Cert.Spec.adj (Row m c) (Col m c) (Val m c) := by
  show StableHlo.after hostOps1 (W2 m ρ c) (Proc.devRef .tc main_v17) = _
  after_results
  rw [W2_of_untouched m ρ c main_arg2 (by decide) (by decide), W2_of_untouched m ρ c main_arg3 (by decide) (by decide),
    W2_of_untouched m ρ c main_arg4 (by decide) (by decide)]
  exact scatterAdd_adj (Row m c) (Col m c) (Val m c) _ _ zeros_apply
    (fun p => by rw [cat_apply0, col_apply, wrap_apply _ _ (hrow _)])
    (fun p => by rw [cat_apply1, col_apply, wrap_apply _ _ (hcol _)])

end Cert.KernelIdeal.Host1

end
-- ==== Proof.HostPad.lean ====
import proofs.«426724_j25752623907270_3_alg».proof.Proof.KArr
import Idealize.ShloMosaic.Lib.StableHlo.Run
import Idealize.ShloMosaic.Lib.Pipeline.Value

/-!
# The host operations between the two kernels: the padded dense product

The first kernel's result, read as 10000 × 1024 (32 rows of 32 to a node) and written as one window into the zero
10240 × 1024 matrix at row 0: rows below 10000 hold the dense product, the rows from 10000 on stay zero.
-/

noncomputable section

open scoped BigOperators

namespace Cert.KernelIdeal.HostPad

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## A fold of overwriting steps, read at one element -/

section Fold
variable {ι κ α : Type} (g : κ → Option ι) (upd : κ → α) (step : (ι → α) → κ → (ι → α))

/-- A fold of overwriting steps leaves an element no step lands on as it was. -/
private theorem foldl_miss
    (hnone : ∀ r n, g n = none → step r n = r)
    (hsome : ∀ r n i i', g n = some i → i' ≠ i → step r n i' = r i')
    (i' : ι) : ∀ (l : List κ) (x : ι → α), (∀ n ∈ l, g n ≠ some i') → l.foldl step x i' = x i'
  | [], _, _ => rfl
  | n :: l, x, h => by
    rw [List.foldl_cons, foldl_miss hnone hsome i' l _ fun n' hn' => h n' (List.mem_cons_of_mem _ hn')]
    cases hg : g n with
    | none => rw [hnone _ _ hg]
    | some i => exact hsome _ _ _ _ hg fun e => h n List.mem_cons_self (e ▸ hg)

/-- A fold of overwriting steps holds, at an element some step lands on, the value that every step landing there
    writes: the steps after the last such one leave the element alone. -/
private theorem foldl_hit
    (hnone : ∀ r n, g n = none → step r n = r)
    (hsome : ∀ r n i i', g n = some i → i' ≠ i → step r n i' = r i')
    (hset : ∀ r n i, g n = some i → step r n i = upd n)
    (i' : ι) (v : α) : ∀ (l : List κ) (x : ι → α), (∃ n ∈ l, g n = some i') → (∀ n ∈ l, g n = some i' → upd n = v) →
      l.foldl step x i' = v
  | [], _, h, _ => by obtain ⟨n, hn, _⟩ := h; exact absurd hn List.not_mem_nil
  | n :: l, x, h, hv => by
    rw [List.foldl_cons]
    by_cases hl : ∃ n' ∈ l, g n' = some i'
    · exact foldl_hit hnone hsome hset i' v l _ hl fun n' hn' => hv n' (List.mem_cons_of_mem _ hn')
    · rw [foldl_miss g step hnone hsome i' l _ fun n' hn' e => hl ⟨n', hn', e⟩]
      obtain ⟨n', hn', e⟩ := h
      rcases List.mem_cons.1 hn' with rfl | hn'
      · rw [hset _ _ _ e]; exact hv _ List.mem_cons_self e
      · exact absurd ⟨n', hn', e⟩ hl

end Fold

/-! ## A window write whose update elements land on distinct elements of the operand -/

section Scatter
variable {s si u : Shape} {w : Nat} {α : Type}

/-- When update element `j` lands on `e j`, all inside the operand and no two on one element, the written array holds
    update element `j` at `e j` (the body returns the update). -/
private theorem scatter_set_hit (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j := by
  unfold Host.scatter
  refine foldl_hit (fun n => d.resultIdx? (u.rowMajor.symm n) idx) (fun n => upd (u.rowMajor.symm n)) _ ?_ ?_ ?_ (e j) (upd j) _ x
    ⟨u.rowMajor j, List.mem_finRange _, ?_⟩ ?_
  · intro r n h; simp only [h]
  · intro r n i i' h hne; simp only [h, if_neg hne]
  · intro r n i h; simp only [h, if_pos]
  · simp only [Equiv.symm_apply_apply, he]
  · intro n _ h
    rw [he] at h
    rw [hinj (Option.some.inj h)]

/-- … and the operand's element wherever no update element lands. -/
private theorem scatter_set_miss (d : ScatterDims s si u) (x : s.Idx → α) (idx : IVec si w) (upd : u.Idx → α)
    (e : u.Idx → s.Idx) (he : ∀ j, d.resultIdx? j idx = some (e j)) (i' : s.Idx) (hi : ∀ j, e j ≠ i') :
    Host.scatter d (fun _ b => b) x idx upd i' = x i' := by
  unfold Host.scatter
  refine foldl_miss (fun n => d.resultIdx? (u.rowMajor.symm n) idx) _ ?_ ?_ i' _ x ?_
  · intro r n h; simp only [h]
  · intro r n i i'' h hne; simp only [h, if_neg hne]
  · intro n _ h
    rw [he] at h
    exact hi _ (Option.some.inj h)

end Scatter

/-! ## This window write: a 10000 × 1024 window at row 0, column 0 of a 10240 × 1024 matrix -/

/-- Where the window write puts update element `j`: the same row and column of the larger matrix. -/
private def emb (j : S10000x1024.Idx) : S10240x1024.Idx :=
  ix2 ⟨(j 0).val, by have h : (j 0).val < 10000 := (j 0).isLt; omega⟩ ⟨(j 1).val, (j 1).isLt⟩

/-- The window coordinate on each axis of the operand is the update element's coordinate on that axis. -/
private theorem window0 (j : S10000x1024.Idx) : scatter_S10240x1024_S1_S10000x1024_01_n_0_0.window j 0 = (j 0).val := rfl
private theorem window1 (j : S10000x1024.Idx) : scatter_S10240x1024_S1_S10000x1024_01_n_0_0.window j 1 = (j 1).val := rfl

/-- At a start index vector of zeros the window starts at 0 on every axis. -/
private theorem start_eq (j : S10000x1024.Idx) (idx : IVec S1 32) (hidx : ∀ k, idx k = 0#32) (a : Fin S10240x1024.rank) :
    scatter_S10240x1024_S1_S10000x1024_01_n_0_0.start j idx a = 0 := by
  unfold ScatterDims.start
  split
  · rw [hidx]; rfl
  · rfl

/-- So update element (r, c) lands on element (r, c), always inside: 10000 ≤ 10240. -/
private theorem resultIdx_eq (j : S10000x1024.Idx) (idx : IVec S1 32) (hidx : ∀ k, idx k = 0#32) :
    scatter_S10240x1024_S1_S10000x1024_01_n_0_0.resultIdx? j idx = some (emb j) := by
  have hs := start_eq j idx hidx
  have h0 : (j 0).val < 10000 := (j 0).isLt
  have h1 : (j 1).val < 1024 := (j 1).isLt
  have hc : ∀ a : Fin S10240x1024.rank,
      0 ≤ scatter_S10240x1024_S1_S10000x1024_01_n_0_0.start j idx a + scatter_S10240x1024_S1_S10000x1024_01_n_0_0.window j a ∧
      scatter_S10240x1024_S1_S10000x1024_01_n_0_0.start j idx a + scatter_S10240x1024_S1_S10000x1024_01_n_0_0.window j a < S10240x1024.size a := by
    intro a
    rw [hs a]
    match a with
    | ⟨0, _⟩ =>
      show 0 ≤ (0 : Int) + ((scatter_S10240x1024_S1_S10000x1024_01_n_0_0.window j 0 : Nat) : Int) ∧
        (0 : Int) + ((scatter_S10240x1024_S1_S10000x1024_01_n_0_0.window j 0 : Nat) : Int) < ((10240 : Nat) : Int)
      rw [window0]; omega
    | ⟨1, _⟩ =>
      show 0 ≤ (0 : Int) + ((scatter_S10240x1024_S1_S10000x1024_01_n_0_0.window j 1 : Nat) : Int) ∧
        (0 : Int) + ((scatter_S10240x1024_S1_S10000x1024_01_n_0_0.window j 1 : Nat) : Int) < ((1024 : Nat) : Int)
      rw [window1]; omega
  unfold ScatterDims.resultIdx?
  rw [dif_pos hc]
  refine congrArg some (funext fun a => Fin.ext ?_)
  match a with
  | ⟨0, _⟩ =>
    show ((scatter_S10240x1024_S1_S10000x1024_01_n_0_0.start j idx 0 + (scatter_S10240x1024_S1_S10000x1024_01_n_0_0.window j 0 : Nat) : Int)).toNat = (j 0).val
    rw [hs 0, window0]; omega
  | ⟨1, _⟩ =>
    show ((scatter_S10240x1024_S1_S10000x1024_01_n_0_0.start j idx 1 + (scatter_S10240x1024_S1_S10000x1024_01_n_0_0.window j 1 : Nat) : Int)).toNat = (j 1).val
    rw [hs 1, window1]; omega

private theorem emb_injective : Function.Injective emb := by
  intro j j' h
  have e0 : (emb j 0).val = (emb j' 0).val := by rw [h]
  have e1 : (emb j 1).val = (emb j' 1).val := by rw [h]
  funext a
  match a with
  | ⟨0, _⟩ => exact Fin.ext e0
  | ⟨1, _⟩ => exact Fin.ext e1

/-- The bf16 zero word is the extended real 0. -/
private theorem ofBits_zero_bf16 : Ideal.ofBits .bf16 0x0000#16 = 0 := by simp [Ideal.ofBits, Ideal.ieee]

/-- The window write over variables: a zero matrix, a zero start, and the flat array `f` read as 10000 × 1024 give the
    padded array. Row r < 10000, column c of the window is position 1024 r + c of `f` in row-major order, which is its
    row 32 r + c / 32, column c % 32. -/
private theorem pad_eq (f : S320000x32.Idx → EReal) (Z : S10240x1024.Idx → EReal) (hZ : ∀ i, Z i = 0)
    (I : IVec S1 32) (hI : ∀ k, I k = 0#32) (hsc : S320000x32.ShapeCasts S10000x1024) :
    Host.scatter scatter_S10240x1024_S1_S10000x1024_01_n_0_0 (fun _ b => b) Z I (shapeCast S10000x1024 f hsc)
      = Cert.Spec.hpad f := by
  funext i
  obtain ⟨a, b, rfl⟩ : ∃ (a : Fin 10240) (b : Fin 1024), i = ix2 a b := ⟨i 0, i 1, eq_ix2 i⟩
  have hb : b.val < 1024 := b.isLt
  by_cases h : a.val < 10000
  · have hi : (ix2 a b : S10240x1024.Idx) = emb (ix2 ⟨a.val, h⟩ b) := by
      funext d; match d with | ⟨0, _⟩ => rfl | ⟨1, _⟩ => rfl
    rw [hi, scatter_set_hit _ Z I _ emb (fun j => resultIdx_eq j I hI) emb_injective, ← hi]
    unfold Cert.Spec.hpad
    rw [dif_pos (show ((ix2 a b : Cert.Spec.SH.Idx) 0).val < 10000 from h)]
    refine shapeCast_apply f hsc _ _ ?_
    rw [Shape.rowMajor_val_two, Shape.rowMajor_val_two]
    show (a.val * 32 + b.val / 32) * 32 + b.val % 32 = a.val * 1024 + b.val
    omega
  · rw [scatter_set_miss _ Z I _ emb (fun j => resultIdx_eq j I hI) (ix2 a b) ?_, hZ]
    · unfold Cert.Spec.hpad
      rw [dif_neg (show ¬ ((ix2 a b : Cert.Spec.SH.Idx) 0).val < 10000 from h)]
    · intro j e
      have e0 : (j 0).val = a.val := congrArg (fun x : S10240x1024.Idx => (x 0).val) e
      have hj : (j 0).val < 10000 := (j 0).isLt
      omega

/-- The second operand of the second kernel is the first kernel's result, 32 rows to a node, padded with zero rows. -/
theorem hpad_eq (c : Dev nD) : Hmat m ρ c = Cert.Spec.hpad (H1 m ρ c) := by
  show StableHlo.after hostOps1 (W2 m ρ c) (Proc.devRef .tc main_v20) = _
  after_results
  rw [show W2 m ρ c (Proc.devRef .tc main_v1) = H1 m ρ c from W2_arr m ρ c 2]
  generalize H1 m ρ c = f
  exact pad_eq f _ (fun _ => ofBits_zero_bf16) _ (fun _ => rfl) _

end Cert.KernelIdeal.HostPad

end
-- ==== Proof.R1Pieces.lean ====
import proofs.«426724_j25752623907270_3_alg».proof.Proof.KArr
import Idealize.ShloMosaic.Lib.Pipeline.Value
import Idealize.ShloMosaic.Lib.Tactic

/-!
# What one grid point of the second kernel leaves in its output block

At the first column block (k = 0) the body stores zero, reads it back, and adds the block product; at a middle column
block it adds the block product to what the point before left; at the last (k = 39) it does that and then takes the
maximum with zero. The block product is a 1024 × 256 block of A times rows 256 k … 256 k + 255 of H.
-/

noncomputable section

open scoped BigOperators

namespace Cert.KernelIdeal.R1Pieces

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable {F : FTy → Type} [FloatOps F]

/-- The rows of H the point at grid coordinates i reads: 256 rows from row 256 · i₁. -/
abbrev hrows (i : grid1.Coords) (x1 : Vec F S10240x1024 .bf16) : Vec F S256x1024 .bf16 :=
  View.ld x1 (Rect.unit (s := S10240x1024) (k1_off1 i) S256x1024.size (k1_off1_inb i))

/-- The zero offsets of a whole-block access, as the constant-zero function. -/
private theorem off_zero : (![0, 0] : Fin 2 → Nat) = fun _ => 0 := funext fun a => by fin_cases a <;> rfl

/-- First column block: zero, plus the block product. The block holds two stores, both of the whole block: the zero
    block first, then the sum; the later one decides every entry. Its third operand is the block read back after the
    first store, which is the zero block; its other two operands are the 256 rows of H at the point's offset and the
    whole block of A. -/
theorem outA_eq (c : Dev nD) (i : grid1.Coords) (a2 : Memref sig .tc .vmem S1024x256 .f32) (h2 : a2.IsWhole)
    (a3 : Memref sig .tc .vmem S10240x1024 .bf16) (h3 : a3.IsWhole) (a4 : Memref sig .tc .vmem S1024x1024 .f32) (h4 : a4.IsWhole)
    (hc0 : cond1_0 i) (hc1 : ¬cond1_1 i) (x0 : Vec F S1024x256 .f32) (x1 : Vec F S10240x1024 .bf16) :
    out1_A_2 c i a2 h2 a3 h3 a4 h4 hc0 hc1 x0 x1 = k1_pay2 (hrows i x1) x0 (k1_pay1 (F := F)) := by
  unfold out1_A_2
  rw [View.read_writes_eq_canon _ _ _ (cover1_A_2 c i a2 h2 a3 h3 a4 h4 hc0 hc1 x0 x1)]
  unfold kernelRun1_A
  dsimp only
  sl_unfold_run_names
  rw [View.canon_cons_unit_zero (S := S1024x1024) off_zero, View.readCov_unit_zero (S := S1024x1024) _ off_zero]
  simp only [View.readAt_eq_ld, h2.read_unread, h3.read_unread, View.ld_unit_zero (S := S1024x256) off_zero]

/-- Middle column block: what was there, plus the block product. The block holds one store of the whole block, the
    sum of the block as the point found it and the product of the whole block of A with the 256 rows of H at the
    point's offset. -/
theorem outB_eq (c : Dev nD) (i : grid1.Coords) (a2 : Memref sig .tc .vmem S1024x256 .f32) (h2 : a2.IsWhole)
    (a3 : Memref sig .tc .vmem S10240x1024 .bf16) (h3 : a3.IsWhole) (a4 : Memref sig .tc .vmem S1024x1024 .f32) (h4 : a4.IsWhole)
    (hc0 : ¬cond1_0 i) (hc1 : ¬cond1_1 i) (x0 : Vec F S1024x256 .f32) (x1 : Vec F S10240x1024 .bf16) (xo : Vec F S1024x1024 .f32) :
    out1_B_2 c i a2 h2 a3 h3 a4 h4 hc0 hc1 x0 x1 xo = k1_pay2 (hrows i x1) x0 xo := by
  unfold out1_B_2
  rw [View.read_writes_eq_canon _ _ _ (cover1_B_2 c i a2 h2 a3 h3 a4 h4 hc0 hc1 x0 x1 xo)]
  unfold kernelRun1_B
  dsimp only
  rw [View.canon_unit_zero (S := S1024x1024) off_zero]
  simp only [View.readAt_eq_ld, h2.read_unread, h3.read_unread, h4.read_unread,
    View.ld_unit_zero (S := S1024x256) off_zero, View.ld_unit_zero (S := S1024x1024) off_zero]

/-- Last column block: what was there, plus the block product, then the maximum with zero. The block holds two stores
    of the whole block: the sum first, then the maximum with zero of the block read back after that store, which is
    the sum; the later one decides every entry. -/
theorem outC_eq (c : Dev nD) (i : grid1.Coords) (a2 : Memref sig .tc .vmem S1024x256 .f32) (h2 : a2.IsWhole)
    (a3 : Memref sig .tc .vmem S10240x1024 .bf16) (h3 : a3.IsWhole) (a4 : Memref sig .tc .vmem S1024x1024 .f32) (h4 : a4.IsWhole)
    (hc0 : ¬cond1_0 i) (hc1 : cond1_1 i) (x0 : Vec F S1024x256 .f32) (x1 : Vec F S10240x1024 .bf16) (xo : Vec F S1024x1024 .f32) :
    out1_C_2 c i a2 h2 a3 h3 a4 h4 hc0 hc1 x0 x1 xo = k1_pay3 (k1_pay2 (hrows i x1) x0 xo) := by
  unfold out1_C_2
  rw [View.read_writes_eq_canon _ _ _ (cover1_C_2 c i a2 h2 a3 h3 a4 h4 hc0 hc1 x0 x1 xo)]
  unfold kernelRun1_C
  dsimp only
  sl_unfold_run_names
  rw [View.canon_cons_unit_zero (S := S1024x1024) off_zero, View.readCov_unit_zero (S := S1024x1024) _ off_zero]
  simp only [View.readAt_eq_ld, h2.read_unread, h3.read_unread, h4.read_unread,
    View.ld_unit_zero (S := S1024x256) off_zero, View.ld_unit_zero (S := S1024x1024) off_zero]

end Cert.KernelIdeal.R1Pieces

end
-- ==== Proof.R1Value.lean ====
import proofs.«426724_j25752623907270_3_alg».proof.Proof.KArr
import proofs.«426724_j25752623907270_3_alg».proof.Proof.R1Pieces
import proofs.«426724_j25752623907270_3_alg».proof.Proof.LibConv
import Idealize.ShloMosaic.Lib.Pipeline.Value
import Idealize.ShloMosaic.PureOps.Ideal.Laws

/-!
# The second kernel's result array is the rectified product A · H

Grid point t = 40 i + k works on row block i (1024 rows) and column block k (256 columns of A, 256 rows of H). By
induction on the point, the output block after point t holds, at (r', j), the ordered sum from zero of the shares of
column blocks 0 … k of entry (1024 i + r', j) of A · H — and after the last column block its maximum with zero. The
block is written back once, after k = 39, and the ten row blocks tile the 10240 rows.

The steps: the three stored values at an entry (zero; what was there plus a 256-term sum of products; the maximum with
zero); the blocks of A and the rows of H a point reads, as entries of the two operand arrays; the invariant; the block
written back after a last column block as a block of the product; the cover of the rows by those blocks. Everything up
to the last line holds for any contents of the buffers at the kernel's entry: the two operands enter only as the
arrays they are.
-/

noncomputable section

open scoped BigOperators

namespace Cert.KernelIdeal.R1Value

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The three stored values at an entry -/

/-- The zero block: every entry is zero. -/
private theorem pay1_apply (r j : Fin 1024) : (k1_pay1 (F := Ideal)) (ix2 r j) = 0 := by
  unfold k1_pay1
  exact Ideal.ofBits_zero_f32

/-- The accumulating step at an entry. -/
private theorem pay2_apply (hs : Vec Ideal S256x1024 .bf16) (a : Vec Ideal S1024x256 .f32) (xo : Vec Ideal S1024x1024 .f32)
    (r j : Fin 1024) :
    k1_pay2 hs a xo (ix2 r j) = xo (ix2 r j) + ∑ c' : Fin 256, a (ix2 r c') * hs (ix2 c' j) := by
  unfold k1_pay2
  simp only [shapeCast_self]
  refine (addf_apply _ _ _).trans ?_
  congr 1
  exact Cert.LibConv.matmul_plain_zero_apply dot_S1024x256_S256x1024_S1024x1024_1_0_0_1_n_n rfl _ _ r j

/-- The rectifier at an entry. -/
private theorem pay3_apply (v : Vec Ideal S1024x1024 .f32) (r j : Fin 1024) :
    k1_pay3 v (ix2 r j) = max (v (ix2 r j)) 0 := by
  unfold k1_pay3
  simp only [shapeCast_self]
  refine (maximumf_apply _ _ _).trans ?_
  congr 1
  exact Ideal.ofBits_zero_f32

/-! ## The blocks a point reads -/

/-- The windows' block indices at point t = 40 i + k, and the grid's second coordinate there. -/
private theorem idx_facts : ∀ t : Fin cfg1.N,
    win1_0.index t (0 : Fin 2) = t.val / 40 ∧ win1_0.index t (1 : Fin 2) = t.val % 40
    ∧ win1_1.index t (0 : Fin 2) = 0 ∧ win1_1.index t (1 : Fin 2) = 0
    ∧ win1_2.index t (0 : Fin 2) = t.val / 40 ∧ win1_2.index t (1 : Fin 2) = 0
    ∧ (grid1.coords t (1 : Fin 2)).val = t.val % 40 :=
  (by decide +kernel : ∀ t : Fin grid1.N, _)

section AnyEntry

-- Any contents of the buffers when the second kernel starts.
variable (V : (c : Dev nD) → (b : Ref sig .tc) → Buf (Elt Ideal) ((c : Thread nD τ).loc b))

/-- The first operand (the adjacency matrix) and the second (the padded dense product) at their literal types. -/
private abbrev opA (c : Dev nD) : Cert.Spec.SA.Idx → EReal := V c main_v17
private abbrev opH (c : Dev nD) : Cert.Spec.SH.Idx → EReal := V c main_v20

/-- The block of A at point t, entry (r', c'): A at (1024 (t / 40) + r', 256 (t % 40) + c'). -/
private theorem ablk_apply (c : Dev nD) (t : Fin cfg1.N) (r' : Fin 1024) (c' : Fin 256) (R C : Fin 10240)
    (hR : R.val = 1024 * (t.val / 40) + r'.val) (hC : C.val = 256 * (t.val % 40) + c'.val) :
    (iblk1 V c 0 t : Vec Ideal S1024x256 .f32) (ix2 r' c') = opA V c (ix2 R C) := by
  have h : ((cfg1.win 0).blk t).view.emb (ix2 r' c') = (ix2 R C : Cert.Spec.SA.Idx) := by
    funext a; apply Fin.ext
    obtain ⟨e0, e1, -⟩ := idx_facts t
    match a with
    | ⟨0, _⟩ => show win1_0.index t (0 : Fin 2) * 1024 + 1 * r'.val = R.val; rw [e0, hR]; omega
    | ⟨1, _⟩ => show win1_0.index t (1 : Fin 2) * 256 + 1 * c'.val = C.val; rw [e1, hC]; omega
  unfold iblk1
  rw [View.read_apply]
  show opA V c (((cfg1.win 0).blk t).view.emb (ix2 r' c')) = opA V c (ix2 R C)
  exact congrArg (opA V c) h

/-- The window on H is the whole of H at every point. -/
private theorem hblk_apply (c : Dev nD) (t : Fin cfg1.N) (C : Fin 10240) (j : Fin 1024) :
    (iblk1 V c 1 t : Vec Ideal S10240x1024 .bf16) (ix2 C j) = opH V c (ix2 C j) := by
  have h : ((cfg1.win 1).blk t).view.emb (ix2 C j) = (ix2 C j : Cert.Spec.SH.Idx) := by
    funext a; apply Fin.ext
    obtain ⟨-, -, e2, e3, -⟩ := idx_facts t
    match a with
    | ⟨0, _⟩ => show win1_1.index t (0 : Fin 2) * 10240 + 1 * C.val = C.val; rw [e2]; omega
    | ⟨1, _⟩ => show win1_1.index t (1 : Fin 2) * 1024 + 1 * j.val = j.val; rw [e3]; omega
  unfold iblk1
  rw [View.read_apply]
  show opH V c (((cfg1.win 1).blk t).view.emb (ix2 C j)) = opH V c (ix2 C j)
  exact congrArg (opH V c) h

/-- The rows of H the body loads at grid coordinates i, entry (c', j): row 256 i₁ + c' of what the window holds. -/
private theorem off_emb (i : grid1.Coords) (c' : Fin 256) (j : Fin 1024) (C : Fin 10240) (hC : C.val = 256 * (i 1).val + c'.val) :
    (Rect.unit (s := S10240x1024) (k1_off1 i) S256x1024.size (k1_off1_inb i)).emb (ix2 c' j) = (ix2 C j : S10240x1024.Idx) := by
  funext a; apply Fin.ext
  rw [Rect.emb_apply]
  have hoff := k1_off1_eq i
  match a with
  | ⟨0, _⟩ =>
    show k1_off1 i 0 + 1 * c'.val = C.val
    rw [hC, hoff]; show 256 * (i 1).val + 1 * c'.val = _; omega
  | ⟨1, _⟩ =>
    show k1_off1 i 1 + 1 * j.val = j.val
    rw [hoff]; show 0 + 1 * j.val = _; omega

/-- The rows of H the point t loads, entry (c', j): H at (256 (t % 40) + c', j). -/
private theorem hrows_apply (c : Dev nD) (t : Fin cfg1.N) (c' : Fin 256) (j : Fin 1024) (C : Fin 10240)
    (hC : C.val = 256 * (t.val % 40) + c'.val) :
    R1Pieces.hrows (grid1.coords t) (iblk1 V c 1 t : Vec Ideal S10240x1024 .bf16) (ix2 c' j) = opH V c (ix2 C j) := by
  show (iblk1 V c 1 t : Vec Ideal S10240x1024 .bf16)
      ((Rect.unit (s := S10240x1024) (k1_off1 (grid1.coords t)) S256x1024.size (k1_off1_inb (grid1.coords t))).emb (ix2 c' j)) = _
  rw [off_emb (grid1.coords t) c' j C (by rw [(idx_facts t).2.2.2.2.2.2]; exact hC)]
  exact hblk_apply V c t C j

end AnyEntry

/-! ## One point's step -/

section Accumulation

variable (V : (c : Dev nD) → (b : Ref sig .tc) → Buf (Elt Ideal) ((c : Thread nD τ).loc b))

/-- The two input blocks of point t at their literal types. -/
private abbrev ablk (c : Dev nD) (t : Fin cfg1.N) : Vec Ideal S1024x256 .f32 := iblk1 V c 0 t
private abbrev hblk (c : Dev nD) (t : Fin cfg1.N) : Vec Ideal S10240x1024 .bf16 := iblk1 V c 1 t

/-- Row r' of row block q, as a row of A (reduced into range: for q < 10 it is 1024 q + r'). -/
private def rowOf (q : ℕ) (r' : Fin 1024) : Fin 10240 := ⟨(1024 * q + r'.val) % 10240, Nat.mod_lt _ (by decide)⟩

private theorem rowOf_val (q : ℕ) (hq : q < 10) (r' : Fin 1024) : (rowOf q r').val = 1024 * q + r'.val := by
  have h : r'.val < 1024 := r'.isLt
  show (1024 * q + r'.val) % 10240 = _
  exact Nat.mod_eq_of_lt (by omega)

private theorem kc_val (k : ℕ) (hk : k < 40) (c' : Fin 256) : (Cert.Spec.kc k c').val = 256 * k + c'.val := by
  have h : c'.val < 256 := c'.isLt
  show (256 * k + c'.val) % 10240 = _
  exact Nat.mod_eq_of_lt (by omega)

/-- The block product of point t at (r', j) is column block t % 40's share of entry (1024 (t / 40) + r', j) of A · H. -/
private theorem blkprod_eq (c : Dev nD) (t : Fin cfg1.N) (r' j : Fin 1024) :
    ∑ c' : Fin 256, ablk V c t (ix2 r' c') * R1Pieces.hrows (grid1.coords t) (hblk V c t) (ix2 c' j)
      = Cert.Spec.blkdot (opA V c) (opH V c) (rowOf (t.val / 40) r') j (t.val % 40) := by
  have hN : t.val < 400 := lt_of_lt_of_eq t.isLt (show cfg1.N = 400 from N_1)
  unfold Cert.Spec.blkdot
  refine Finset.sum_congr rfl fun c' _ => ?_
  have hk := kc_val (t.val % 40) (by omega) c'
  exact congrArg₂ (· * ·)
    (ablk_apply V c t r' c' (rowOf (t.val / 40) r') (Cert.Spec.kc (t.val % 40) c') (rowOf_val _ (by omega) r') hk)
    (hrows_apply V c t c' j (Cert.Spec.kc (t.val % 40) c') hk)

/-- First column block: the block holds zero plus the share. -/
private theorem stepA (c : Dev nD) (t : Fin cfg1.N) (h0 : t.val % 40 = 0) (h1 : ¬t.val % 40 = 39) (r' j : Fin 1024) :
    outsAt1 V c t.val t.isLt (ix2 r' j)
      = 0 + Cert.Spec.blkdot (opA V c) (opH V c) (rowOf (t.val / 40) r') j (t.val % 40) := by
  rw [outsAt1_A V c t h0 h1]
  refine (congrFun (R1Pieces.outA_eq (F := Ideal) c (grid1.coords t) (ms1_0 t) (hs1_0 t) (ms1_1 t) (hs1_1 t) (ms1_2 t) (hs1_2 t)
    ((hcond1_0 t).mpr h0) (fun h => h1 ((hcond1_1 t).mp h)) (ablk V c t) (hblk V c t)) (ix2 r' j)).trans ?_
  refine (pay2_apply _ _ _ r' j).trans ?_
  rw [pay1_apply, blkprod_eq]

/-- Middle column block: what the point before left, plus the share. -/
private theorem stepB (c : Dev nD) (t : Fin cfg1.N) (h0 : ¬t.val % 40 = 0) (h1 : ¬t.val % 40 = 39) (r' j : Fin 1024) :
    outsAt1 V c t.val t.isLt (ix2 r' j)
      = outsAt1 V c (t.val - 1) (Nat.lt_of_le_of_lt (Nat.sub_le _ _) t.isLt) (ix2 r' j)
        + Cert.Spec.blkdot (opA V c) (opH V c) (rowOf (t.val / 40) r') j (t.val % 40) := by
  rw [outsAt1_B V c t h0 h1]
  refine (congrFun (R1Pieces.outB_eq (F := Ideal) c (grid1.coords t) (ms1_0 t) (hs1_0 t) (ms1_1 t) (hs1_1 t) (ms1_2 t) (hs1_2 t)
    (fun h => h0 ((hcond1_0 t).mp h)) (fun h => h1 ((hcond1_1 t).mp h)) (ablk V c t) (hblk V c t)
    (outsAt1 V c (t.val - 1) (Nat.lt_of_le_of_lt (Nat.sub_le _ _) t.isLt))) (ix2 r' j)).trans ?_
  refine (pay2_apply _ _ _ r' j).trans ?_
  rw [blkprod_eq]

/-- Last column block: what the point before left, plus the share, then the maximum with zero. -/
private theorem stepC (c : Dev nD) (t : Fin cfg1.N) (h0 : ¬t.val % 40 = 0) (h1 : t.val % 40 = 39) (r' j : Fin 1024) :
    outsAt1 V c t.val t.isLt (ix2 r' j)
      = max (outsAt1 V c (t.val - 1) (Nat.lt_of_le_of_lt (Nat.sub_le _ _) t.isLt) (ix2 r' j)
        + Cert.Spec.blkdot (opA V c) (opH V c) (rowOf (t.val / 40) r') j (t.val % 40)) 0 := by
  rw [outsAt1_C V c t h0 h1]
  refine (congrFun (R1Pieces.outC_eq (F := Ideal) c (grid1.coords t) (ms1_0 t) (hs1_0 t) (ms1_1 t) (hs1_1 t) (ms1_2 t) (hs1_2 t)
    (fun h => h0 ((hcond1_0 t).mp h)) ((hcond1_1 t).mpr h1) (ablk V c t) (hblk V c t)
    (outsAt1 V c (t.val - 1) (Nat.lt_of_le_of_lt (Nat.sub_le _ _) t.isLt))) (ix2 r' j)).trans ?_
  refine (pay3_apply _ r' j).trans ?_
  congr 1
  refine (pay2_apply _ _ _ r' j).trans ?_
  rw [blkprod_eq]

end Accumulation

/-! ## The invariant, the write-back and the result -/

section Result

variable (V : (c : Dev nD) → (b : Ref sig .tc) → Buf (Elt Ideal) ((c : Thread nD τ).loc b))

/-- What the output block holds after point n at (r', j): the ordered sum from zero of the shares of column blocks
    0 … n % 40 of entry (1024 (n / 40) + r', j) of A · H, and after the last column block its maximum with zero. -/
private def acc (A : Cert.Spec.SA.Idx → EReal) (H : Cert.Spec.SH.Idx → EReal) (n : ℕ) (r' j : Fin 1024) : EReal :=
  if n % 40 = 39 then max (Cert.Spec.osum (Cert.Spec.blkdot A H (rowOf (n / 40) r') j) 39) 0
  else Cert.Spec.osum (Cert.Spec.blkdot A H (rowOf (n / 40) r') j) (n % 40)

/-- The invariant, by induction on the point. -/
private theorem outsAt_eq (c : Dev nD) : ∀ (n : ℕ) (hn : n < cfg1.N) (r' j : Fin 1024),
    outsAt1 V c n hn (ix2 r' j) = acc (opA V c) (opH V c) n r' j
  | 0, hn, r', j => by
    refine (stepA V c ⟨0, hn⟩ (Nat.zero_mod 40) (by show ¬0 % 40 = 39; decide) r' j).trans ?_
    rfl
  | n + 1, hn, r', j => by
    have hN : n + 1 < 400 := lt_of_lt_of_eq hn (show cfg1.N = 400 from N_1)
    by_cases h0 : (n + 1) % 40 = 0
    · have h1 : ¬(n + 1) % 40 = 39 := by omega
      refine (stepA V c ⟨n + 1, hn⟩ h0 h1 r' j).trans ?_
      unfold acc
      rw [if_neg h1]
      show 0 + Cert.Spec.blkdot (opA V c) (opH V c) (rowOf ((n + 1) / 40) r') j ((n + 1) % 40)
        = Cert.Spec.osum (Cert.Spec.blkdot (opA V c) (opH V c) (rowOf ((n + 1) / 40) r') j) ((n + 1) % 40)
      rw [h0]; rfl
    · have e1 : (n + 1) / 40 = n / 40 := by omega
      by_cases h1 : (n + 1) % 40 = 39
      · refine (stepC V c ⟨n + 1, hn⟩ h0 h1 r' j).trans ?_
        show max (outsAt1 V c n (Nat.lt_of_succ_lt hn) (ix2 r' j)
          + Cert.Spec.blkdot (opA V c) (opH V c) (rowOf ((n + 1) / 40) r') j ((n + 1) % 40)) 0 = _
        rw [outsAt_eq c n (Nat.lt_of_succ_lt hn) r' j]
        unfold acc
        have e2 : n % 40 = 38 := by omega
        rw [if_pos h1, if_neg (by omega), e1, e2, h1]
        rfl
      · refine (stepB V c ⟨n + 1, hn⟩ h0 h1 r' j).trans ?_
        show outsAt1 V c n (Nat.lt_of_succ_lt hn) (ix2 r' j)
          + Cert.Spec.blkdot (opA V c) (opH V c) (rowOf ((n + 1) / 40) r') j ((n + 1) % 40) = _
        rw [outsAt_eq c n (Nat.lt_of_succ_lt hn) r' j]
        unfold acc
        have e2 : (n + 1) % 40 = n % 40 + 1 := by omega
        rw [if_neg h1, if_neg (by omega), e1, e2]
        rfl

/-- A point that writes its block back (the last column block of a row block) writes the block of the product. -/
private theorem flushed_eq (c : Dev nD) (t : Fin cfg1.N) (hf : (cfg1.win 2).flush t = true) :
    (dat1 V c).flushed 2 t = ((cfg1.win 2).blk t).view.read (Elt Ideal) (Cert.Spec.mm (opA V c) (opH V c)) := by
  have h39 : t.val % 40 = 39 := (flush1_2 t).mp hf
  have hN : t.val < 400 := lt_of_lt_of_eq t.isLt (show cfg1.N = 400 from N_1)
  show (cfg1.win 2).cut (grid1.coords t) ((dat1 V c).after 2 t) = _
  rw [after1_2]
  funext y
  obtain ⟨r', j, rfl⟩ : ∃ (r' j : Fin 1024), y = ix2 r' j := ⟨y 0, y 1, eq_ix2 y⟩
  have hemb : ((cfg1.win 2).blk t).view.emb (ix2 r' j) = (ix2 (rowOf (t.val / 40) r') j : Cert.Spec.SH.Idx) := by
    obtain ⟨-, -, -, -, e4, e5, -⟩ := idx_facts t
    funext a; apply Fin.ext
    match a with
    | ⟨0, _⟩ =>
      show win1_2.index t (0 : Fin 2) * 1024 + 1 * r'.val = (rowOf (t.val / 40) r').val
      rw [e4, rowOf_val _ (by omega)]; omega
    | ⟨1, _⟩ => show win1_2.index t (1 : Fin 2) * 1024 + 1 * j.val = j.val; rw [e5]; omega
  show outsAt1 V c t.val t.isLt (ix2 r' j)
    = Cert.Spec.mm (opA V c) (opH V c) (((cfg1.win 2).blk t).view.emb (ix2 r' j))
  rw [hemb, outsAt_eq V c t.val t.isLt r' j]
  unfold acc
  rw [if_pos h39]
  rfl

/-- An index of the result array is in point t's output block iff each coordinate is in the block's range. -/
private theorem mem_blk (t : Fin cfg1.N) (i : S10240x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v21).slice (win1_2.rect t)).set ↔ _
  rw [View.set_slice_whole, Rect.mem_set_unit]
  exact Iff.rfl

/-- The result array after the run: row r lies in the block written back after point 40 (r / 1024) + 39. -/
private theorem final_any (c : Dev nD) : (dat1 V c).arrAt 2 cfg1.N = Cert.Spec.mm (opA V c) (opH V c) :=
  (dat1 V c).arrAt_eq_of_cover 2 (Cert.Spec.mm (opA V c) (opH V c)) (flushed_eq V c) fun i => by
    have hi0 : (i 0).val < 10240 := (i 0).isLt
    have hi1 : (i 1).val < 1024 := (i 1).isLt
    have hlt : 40 * ((i 0).val / 1024) + 39 < cfg1.N := by rw [show cfg1.N = 400 from N_1]; omega
    refine ⟨⟨40 * ((i 0).val / 1024) + 39, hlt⟩, (flush1_2 _).mpr (by show (40 * ((i 0).val / 1024) + 39) % 40 = 39; omega), ?_⟩
    obtain ⟨-, -, -, -, e4, e5, -⟩ := idx_facts ⟨40 * ((i 0).val / 1024) + 39, hlt⟩
    have e4' : win1_2.index ⟨40 * ((i 0).val / 1024) + 39, hlt⟩ (0 : Fin 2) = (i 0).val / 1024 := by
      rw [e4]; show (40 * ((i 0).val / 1024) + 39) / 40 = _; omega
    rw [mem_blk]
    intro a
    match a with
    | ⟨0, _⟩ =>
      show win1_2.index ⟨40 * ((i 0).val / 1024) + 39, hlt⟩ (0 : Fin 2) * 1024 ≤ (i 0).val
        ∧ (i 0).val < win1_2.index ⟨40 * ((i 0).val / 1024) + 39, hlt⟩ (0 : Fin 2) * 1024 + 1024
      rw [e4']; omega
    | ⟨1, _⟩ =>
      show win1_2.index ⟨40 * ((i 0).val / 1024) + 39, hlt⟩ (1 : Fin 2) * 1024 ≤ (i 1).val
        ∧ (i 1).val < win1_2.index ⟨40 * ((i 0).val / 1024) + 39, hlt⟩ (1 : Fin 2) * 1024 + 1024
      rw [e5]; omega

end Result

/-- The second kernel's result array after its run is the rectified block-accumulated product of its two operands. -/
theorem final1 (c : Dev nD) : O1 m ρ c = Cert.Spec.mm (Amat m ρ c) (Hmat m ρ c) :=
  final_any (V3 m ρ) c

end Cert.KernelIdeal.R1Value

end
-- ==== Proof.Tail.lean ====
import proofs.«426724_j25752623907270_3_alg».proof.Proof.KArr
import Idealize.ShloMosaic.Lib.StableHlo.Run
import Idealize.ShloMosaic.Lib.Pipeline.Value

/-!
# The host operations after the second kernel

The first 10000 rows of the 10240 × 1024 result, read as 10000 × 32 × 32: entry (n, k, e) is entry (n, 32 k + e).
-/

noncomputable section

open scoped BigOperators

namespace Cert.KernelIdeal.Tail

open Cert.KernelIdeal Cert.KernelIdeal.Gen Cert.KernelIdeal.KV
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result buffer at the last boundary is the reshape of the slice of the second kernel's result buffer. -/
theorem out_term (c : Dev nD) :
    W5 m ρ c (Proc.devRef .tc main_v23)
      = shapeCast S10000x32x32 (extractStridedSlice S10000x1024 ![0, 0] (W4 m ρ c (Proc.devRef .tc main_v21)) slices_S10240x1024_S10000x1024_0_0) shapeCasts_S10000x1024_S10000x32x32 := by
  show StableHlo.after hostOps2 (W4 m ρ c) (Proc.devRef .tc main_v23) = _
  after_results
  rfl

/-- The second kernel's result buffer at its exit is its result array. -/
theorem v21_eq (c : Dev nD) : (W4 m ρ c (Proc.devRef .tc main_v21) : Cert.Spec.SH.Idx → EReal) = O1 m ρ c := W4_arr m ρ c 2

/-- The slice keeps rows 0 … 9999 where they are; the reshape splits column 32 k + e into (k, e): same place in
    row-major order. -/
theorem slice_reshape_apply (v : Cert.Spec.SH.Idx → EReal) (n : Fin 10000) (k e : Fin 32) :
    shapeCast S10000x32x32 (extractStridedSlice S10000x1024 ![0, 0] v slices_S10240x1024_S10000x1024_0_0) shapeCasts_S10000x1024_S10000x32x32 (ix3 n k e)
      = v (ix2 ⟨n.val, by have := n.isLt; omega⟩ ⟨32 * k.val + e.val, by have := k.isLt; have := e.isLt; omega⟩) := by
  have hk : 32 * k.val + e.val < 1024 := by have := k.isLt; have := e.isLt; omega
  rw [shapeCast_apply _ shapeCasts_S10000x1024_S10000x32x32 (ix3 n k e) (ix2 n ⟨32 * k.val + e.val, hk⟩) (by
    rw [Shape.rowMajor_val_two, Shape.rowMajor_val_three]
    show n.val * 1024 + (32 * k.val + e.val) = (n.val * 32 + k.val) * 32 + e.val
    omega)]
  unfold extractStridedSlice
  refine congrArg v (funext fun a => Fin.ext ?_)
  match a with
  | ⟨0, _⟩ => show 0 + n.val = n.val; omega
  | ⟨1, _⟩ => show 0 + (32 * k.val + e.val) = 32 * k.val + e.val; omega

/-- The program's result buffer at the last boundary, from the second kernel's result array. -/
theorem out_apply (c : Dev nD) (n : Fin 10000) (k e : Fin 32) :
    (W5 m ρ c (Proc.devRef .tc main_v23) : Cert.Spec.SO.Idx → EReal) (ix3 n k e)
      = O1 m ρ c (ix2 ⟨n.val, by have := n.isLt; omega⟩ ⟨32 * k.val + e.val, by have := k.isLt; have := e.isLt; omega⟩) := by
  refine (congrFun (out_term m ρ c) (ix3 n k e)).trans ?_
  rw [v21_eq]
  exact slice_reshape_apply _ n k e

end Cert.KernelIdeal.Tail

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Algebra.lean ====
import proofs.«426724_j25752623907270_3_alg».proof.Proof.Spec
import proofs.«426724_j25752623907270_3_alg».proof.Proof.LibReal

/-!
# The two arrangements agree over the reals

For finite inputs and column indices in range: the rectified entry (n, 32 k + e) of A · H, with A the dense adjacency
matrix and H the padded dense product, is the rectified sum over the edges into n of feat(col j, k, e) · val j. The
weights of the edges of one cell factor out of the product with H's entry (all numbers are reals, so the product
distributes over the sum), the padded columns contribute nothing, and the cells of row n partition the edges into n.
-/

noncomputable section

open scoped BigOperators

namespace Cert.Algebra

open Idealize.ShloMosaic Idealize.ShloMosaic.ValueIdx Finset Cert.Spec Cert.LibReal

/-- Forty blocks of 256 consecutive indices are the 10240 indices: (k, c') ↦ 256 k + c' is a bijection. -/
private theorem sum_blocks {M : Type*} [AddCommMonoid M] (g : Fin 10240 → M) :
    ∑ k : Fin 40, ∑ c' : Fin 256, g ⟨256 * k.val + c'.val, by have := k.isLt; have := c'.isLt; omega⟩
      = ∑ c : Fin 10240, g c := by
  rw [← Fintype.sum_prod_type']
  refine Fintype.sum_equiv (finProdFinEquiv (m := 40) (n := 256)) _ _ fun p => ?_
  congr 1
  apply Fin.ext
  show 256 * p.1.val + p.2.val = p.2.val + 256 * p.1.val
  omega

/-- For a block number below 40 the reduction into range does nothing: column c' of block k is 256 k + c'. -/
private theorem kc_of_lt (k : Fin 40) (c' : Fin 256) :
    kc k.val c' = ⟨256 * k.val + c'.val, by have := k.isLt; have := c'.isLt; omega⟩ := by
  apply Fin.ext
  show (256 * k.val + c'.val) % 10240 = 256 * k.val + c'.val
  have := k.isLt
  have := c'.isLt
  exact Nat.mod_eq_of_lt (by omega)

/-- Forty column blocks of 256 are the 10240 columns. -/
theorem osum_blkdot (A : SA.Idx → EReal) (H : SH.Idx → EReal) (r : Fin 10240) (j : Fin 1024) :
    osum (blkdot A H r j) 39 = ∑ c : Fin 10240, A (ix2 r c) * H (ix2 c j) := by
  rw [osum_eq]
  show ∑ k ∈ range 40, blkdot A H r j k = _
  rw [Finset.sum_range, ← sum_blocks (fun c => A (ix2 r c) * H (ix2 c j))]
  refine Finset.sum_congr rfl fun k _ => ?_
  unfold blkdot
  refine Finset.sum_congr rfl fun c' _ => ?_
  rw [kc_of_lt k c']

/-- The dense product of real arrays is real. -/
private theorem feat_real (x : SX.Idx → EReal) (w : SW.Idx → EReal)
    (hx : ∀ i, IsReal (x i)) (hw : ∀ i, IsReal (w i)) :
    ∃ F : Fin 10000 → Fin 32 → Fin 32 → ℝ, ∀ n k e, feat x w n k e = (F n k e : EReal) := by
  have hx' : ∀ i, ∃ r : ℝ, x i = (r : EReal) := hx
  have hw' : ∀ i, ∃ r : ℝ, w i = (r : EReal) := hw
  choose xr hxr using hx'
  choose wr hwr using hw'
  refine ⟨fun n k e => ∑ d : Fin 128, xr (ix3 n k d) * wr (ix2 d e), fun n k e => ?_⟩
  unfold feat
  rw [coe_sum]
  refine Finset.sum_congr rfl fun d _ => ?_
  rw [EReal.coe_mul, ← hxr, ← hwr]

/-- A real factor distributes over a finite sum of reals started from zero. -/
private theorem cell_mul {ι : Type*} (s : Finset ι) (v : ι → EReal) (hv : ∀ j, IsReal (v j)) (f : EReal)
    (hf : IsReal f) : (0 + ∑ j ∈ s, v j) * f = ∑ j ∈ s, f * v j := by
  obtain ⟨fr, rfl⟩ := hf
  have hv' : ∀ j, ∃ r : ℝ, v j = (r : EReal) := hv
  choose vr hvr using hv'
  have e1 : ∑ j ∈ s, v j = ((∑ j ∈ s, vr j : ℝ) : EReal) := by
    rw [coe_sum]
    exact Finset.sum_congr rfl fun j _ => hvr j
  have e2 : ∑ j ∈ s, (fr : EReal) * v j = ((∑ j ∈ s, fr * vr j : ℝ) : EReal) := by
    rw [coe_sum]
    exact Finset.sum_congr rfl fun j _ => by rw [EReal.coe_mul, hvr j]
  rw [zero_add, e1, e2, ← EReal.coe_mul, Finset.sum_mul]
  congr 1
  exact Finset.sum_congr rfl fun j _ => mul_comm _ _

/-- Below row 10000 the padded dense product's entry (c, 32 k + e) is the dense product at node c. -/
private theorem hpad_featFlat_lt (x : SX.Idx → EReal) (w : SW.Idx → EReal) (c : Fin 10240) (k e : Fin 32)
    (hj : 32 * k.val + e.val < 1024) (h : c.val < 10000) :
    hpad (featFlat x w) (ix2 c ⟨32 * k.val + e.val, hj⟩) = feat x w ⟨c.val, h⟩ k e := by
  have hk := k.isLt
  have he := e.isLt
  have h0 : hpad (featFlat x w) (ix2 c ⟨32 * k.val + e.val, hj⟩)
      = featFlat x w (ix2 ⟨c.val * 32 + (32 * k.val + e.val) / 32, by show _ < 320000; omega⟩
          ⟨(32 * k.val + e.val) % 32, Nat.mod_lt _ (by decide)⟩) := dif_pos h
  rw [h0]
  unfold featFlat
  congr 1 <;> apply Fin.ext
  · show (c.val * 32 + (32 * k.val + e.val) / 32) / 32 = c.val
    omega
  · show (c.val * 32 + (32 * k.val + e.val) / 32) % 32 = k.val
    omega
  · show (32 * k.val + e.val) % 32 = e.val
    omega

/-- From row 10000 on the padded dense product is zero. -/
private theorem hpad_ge (f : SF.Idx → EReal) (c : Fin 10240) (j : Fin 1024) (h : ¬ c.val < 10000) :
    hpad f (ix2 c j) = 0 := dif_neg h

/-- The dense arrangement's entry is the edge-list arrangement's. -/
theorem mm_eq_G (x : SX.Idx → EReal) (w : SW.Idx → EReal) (row col : SE.Idx → BitVec 32) (val : SE.Idx → EReal)
    (hx : ∀ i, IsReal (x i)) (hw : ∀ i, IsReal (w i)) (hv : ∀ i, IsReal (val i))
    (hcol : ∀ j, 0 ≤ (col j).toInt ∧ (col j).toInt < 10000) (n : Fin 10000) (k e : Fin 32) :
    mm (adj row col val) (hpad (featFlat x w))
        (ix2 ⟨n.val, by have := n.isLt; omega⟩ ⟨32 * k.val + e.val, by have := k.isLt; have := e.isLt; omega⟩)
      = G x w row col val (ix3 n k e) := by
  obtain ⟨F, hF⟩ := feat_real x w hx hw
  have hn := n.isLt
  have hk := k.isLt
  have he := e.isLt
  have hj : 32 * k.val + e.val < 1024 := by omega
  show max (osum (blkdot (adj row col val) (hpad (featFlat x w)) ⟨n.val, by omega⟩ ⟨32 * k.val + e.val, hj⟩) 39) 0
    = max (0 + ∑ j ∈ inEdges row n.val, feat x w (cix col j) k e * val (ix1 j)) 0
  rw [osum_blkdot, zero_add]
  refine congrArg (fun t => max t 0) ?_
  -- the edges into n, grouped by their column index
  rw [← Finset.sum_fiberwise (inEdges row n.val)
    (fun j => (⟨(col (ix1 j)).toInt.toNat % 10240, Nat.mod_lt _ (by decide)⟩ : Fin 10240))]
  refine Finset.sum_congr rfl fun c _ => ?_
  have hcell : (inEdges row n.val).filter
      (fun j => (⟨(col (ix1 j)).toInt.toNat % 10240, Nat.mod_lt _ (by decide)⟩ : Fin 10240) = c)
      = cellEdges row col n.val c.val := by
    unfold inEdges cellEdges
    rw [Finset.filter_filter]
    refine Finset.filter_congr fun j _ => and_congr_right fun _ => ?_
    have h1 := (hcol (ix1 j)).1
    have h2 := (hcol (ix1 j)).2
    have hc := c.isLt
    rw [Fin.ext_iff]
    show (col (ix1 j)).toInt.toNat % 10240 = c.val ↔ _
    omega
  rw [hcell]
  show (0 + ∑ j ∈ cellEdges row col n.val c.val, val (ix1 j)) * hpad (featFlat x w) (ix2 c ⟨32 * k.val + e.val, hj⟩) = _
  by_cases h : c.val < 10000
  · rw [hpad_featFlat_lt x w c k e hj h, cell_mul _ _ (fun j => hv (ix1 j)) _ ⟨_, hF _ k e⟩]
    refine Finset.sum_congr rfl fun j hjm => ?_
    have hjc : (col (ix1 j)).toInt = (c.val : ℤ) := by
      unfold cellEdges at hjm
      exact ((Finset.mem_filter.mp hjm).2).2
    have hcix : cix col j = ⟨c.val, h⟩ := by
      apply Fin.ext
      show (col (ix1 j)).toInt.toNat % 10000 = c.val
      rw [hjc]
      omega
    rw [hcix]
  · rw [hpad_ge _ c _ h, mul_zero]
    symm
    refine Finset.sum_eq_zero fun j hjm => ?_
    exfalso
    have hjc : (col (ix1 j)).toInt = (c.val : ℤ) := by
      unfold cellEdges at hjm
      exact ((Finset.mem_filter.mp hjm).2).2
    have h2 := (hcol (ix1 j)).2
    omega

end Cert.Algebra

end
-- ==== Proof.PreFacts.lean ====
import proofs.«426724_j25752623907270_3_alg».proof.Pre_finite_inputs
import proofs.«426724_j25752623907270_3_alg».proof.Proof.Gen.Pre_finite_inputs
import proofs.«426724_j25752623907270_3_alg».proof.Proof.Spec
import proofs.«426724_j25752623907270_3_alg».proof.Proof.LibReal
import Idealize.ShloMosaic.Lib.StableHlo.Predicate
import Idealize.ShloMosaic.Lib.ReduceAll

/-!
# The precondition read back

The printed predicate that came out all ones says: every entry of x, of the weights and of the edge weights is a real;
no row index is negative; every column index lies in [0, 10000).
-/

noncomputable section

open scoped BigOperators

namespace Cert.PreFacts

open Idealize.ShloMosaic Idealize.ShloMosaic.ValueIdx Cert.Spec Cert.LibReal

/-- The scalar shape. -/
private abbrev S0 : Shape := ⟨0, ![]⟩

/-- The and of two one-bit scalars is 1 exactly when both are. -/
private theorem and_scalar (a b : IVec S0 1) (h : andi a b ix0 = 1#1) : a ix0 = 1#1 ∧ b ix0 = 1#1 :=
  IntOp.andi_eq_one.1 h

/-- A scalar constant broadcast to any shape reads the constant at every index. -/
private theorem bcast_const {w : ℕ} {s : Shape} (hb : S0.BroadcastsInDim s ![]) (c : BitVec w) (j : s.Idx) :
    broadcastInDim s ![] hb (constantI S0 w c) j = c := by
  rw [broadcastInDim_apply ![] hb _ j ix0 (fun a => a.elim0)]
  rfl

/-- An and-reduce to a scalar of "a ≥ 0" (signed, against the broadcast 0) that is 1: no entry of a is negative. -/
private theorem nonneg_of_all {s : Shape} {axes : List (Fin s.rank)} (a : IVec s 32)
    (hb : S0.BroadcastsInDim s ![]) (hr : s.ReducesTo axes S0) (hu : 0 < S0.numel)
    (e : Host.reduce IntOp.andi (cmpi .sge a (broadcastInDim s ![] hb (constantI S0 32 0#32)))
      (constantI S0 1 1#1) hr hu ix0 = 1#1) (j : s.Idx) : 0 ≤ (a j).toInt := by
  have h1 := Host.reduce_andi_all _ _ hr hu ix0 e j
  have h2 : IntOp.cmpi .sge (a j) (broadcastInDim s ![] hb (constantI S0 32 0#32) j) = 1#1 := h1
  rw [bcast_const, IntOp.cmpi_sge] at h2
  exact h2

/-- An and-reduce to a scalar of "a ≥ 0 and a < 10000" (signed, against the broadcast constants) that is 1: every entry
    of a lies in [0, 10000). -/
private theorem range_of_all {s : Shape} {axes : List (Fin s.rank)} (a : IVec s 32)
    (hb : S0.BroadcastsInDim s ![]) (hr : s.ReducesTo axes S0) (hu : 0 < S0.numel)
    (e : Host.reduce IntOp.andi
      (andi (cmpi .sge a (broadcastInDim s ![] hb (constantI S0 32 0#32)))
        (cmpi .slt a (broadcastInDim s ![] hb (constantI S0 32 10000#32))))
      (constantI S0 1 1#1) hr hu ix0 = 1#1) (j : s.Idx) : 0 ≤ (a j).toInt ∧ (a j).toInt < 10000 := by
  have h1 := Host.reduce_andi_all _ _ hr hu ix0 e j
  have h2 : IntOp.andi (IntOp.cmpi .sge (a j) (broadcastInDim s ![] hb (constantI S0 32 0#32) j))
      (IntOp.cmpi .slt (a j) (broadcastInDim s ![] hb (constantI S0 32 10000#32) j)) = 1#1 := h1
  rw [bcast_const, bcast_const, IntOp.andi_eq_one, IntOp.cmpi_sge, IntOp.cmpi_slt] at h2
  exact h2

/-- What the precondition says of the five argument arrays. -/
theorem pre_facts [Cert.Pre_finite_inputs.Facts] (x : SX.Idx → EReal) (w : SW.Idx → EReal) (row col : SE.Idx → BitVec 32) (val : SE.Idx → EReal)
    (h : Cert.Pre_finite_inputs.fn (F := Ideal) x w row col val = fun _ => 1#1) :
    (∀ i, IsReal (x i)) ∧ (∀ i, IsReal (w i)) ∧ (∀ i, IsReal (val i))
      ∧ (∀ j, 0 ≤ (row j).toInt) ∧ (∀ j, 0 ≤ (col j).toInt ∧ (col j).toInt < 10000) := by
  have h0 := congrFun h ValueIdx.ix0
  dsimp only [Cert.Pre_finite_inputs.fn, Cert.Pre_finite_inputs.fn_part1] at h0
  obtain ⟨h1, hc⟩ := and_scalar _ _ h0
  obtain ⟨h2, hr⟩ := and_scalar _ _ h1
  obtain ⟨h3, hv⟩ := and_scalar _ _ h2
  obtain ⟨hx, hw⟩ := and_scalar _ _ h3
  exact ⟨isReal_of_all x _ _ _ hx, isReal_of_all w _ _ _ hw, isReal_of_all val _ _ _ hv,
    nonneg_of_all row _ _ _ hr, range_of_all col _ _ _ hc⟩

end Cert.PreFacts

end
-- ==== Proof.RefValue.lean ====
import proofs.«426724_j25752623907270_3_alg».proof.Defs
import proofs.«426724_j25752623907270_3_alg».proof.Proof.Gen.ReferenceIdeal.Run
import proofs.«426724_j25752623907270_3_alg».proof.Proof.Gen.ReferenceIdeal.Read
import proofs.«426724_j25752623907270_3_alg».proof.Proof.Spec
import Idealize.ShloMosaic.Lib.StableHlo.Predicate

/-!
# The reference computes G

The reference's last stage, index by index: the rectifier of the scatter-add, into zero at the row index, of the
gathered dense product times the edge weight. With every column index in [0, 10000) the wrap-around of negative indices
and the gather's clamp are the identity, and an update lands on (n, k, e) exactly when its edge's row index is n and
its window coordinates are (k, e).
-/

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The scatter's and the gather's dimension numbers -/

private abbrev SD := scatter_S10000x32x32_S160000x1_S160000x32x32_12_0_0_1
private abbrev GD := gather_S10000x32x32_S160000x1_S160000x32x32_12_0_n_n_0_1_13232

/-- A statement about the three axes is the three statements. -/
private theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-! ## The scatter-add: where update (j₀, j₁, j₂) lands

Axis 0 of the operand is the scattered one: its window starts at the row index of edge j₀, read signed at (j₀, 0), and
has extent one. Axes 1 and 2 are window axes: they start at 0 and carry j₁ and j₂. -/

private theorem sd_start0 (idx : IVec S160000x1 32) (j : S160000x32x32.Idx) :
    SD.start j idx 0 = (idx (ix2 (⟨(j 0).val, (j 0).isLt⟩ : Fin 160000) (0 : Fin 1))).toInt := by
  unfold ScatterDims.start
  rw [dif_pos (by decide)]
  congr 2
  funext b
  match b with
  | ⟨0, _⟩ => rfl
  | ⟨1, _⟩ => rfl

private theorem sd_start1 (idx : IVec S160000x1 32) (j : S160000x32x32.Idx) : SD.start j idx 1 = 0 := by
  unfold ScatterDims.start
  rw [dif_neg (by decide)]

private theorem sd_start2 (idx : IVec S160000x1 32) (j : S160000x32x32.Idx) : SD.start j idx 2 = 0 := by
  unfold ScatterDims.start
  rw [dif_neg (by decide)]

private theorem sd_window0 (j : S160000x32x32.Idx) : SD.window j 0 = 0 := by
  unfold ScatterDims.window
  rw [dif_neg (by decide)]

private theorem sd_window1 (j : S160000x32x32.Idx) : SD.window j 1 = (j 1).val := by
  unfold ScatterDims.window
  rw [dif_pos (by decide)]
  rfl

private theorem sd_window2 (j : S160000x32x32.Idx) : SD.window j 2 = (j 2).val := by
  unfold ScatterDims.window
  rw [dif_pos (by decide)]
  rfl

set_option maxHeartbeats 100000 in
/-- Update (j₀, j₁, j₂) lands on (n, k, e) exactly when edge j₀'s row index, read signed, is n and (j₁, j₂) = (k, e):
    a row index outside [0, 10000) leaves the operand and the update is dropped, so it lands nowhere. -/
private theorem sd_result_iff (idx : IVec S160000x1 32) (j : S160000x32x32.Idx) (n : Fin 10000) (k e : Fin 32) :
    SD.resultIdx? j idx = some (ix3 n k e) ↔
      (idx (ix2 (⟨(j 0).val, (j 0).isLt⟩ : Fin 160000) (0 : Fin 1))).toInt = (n.val : ℤ) ∧ (j 1).val = k.val ∧ (j 2).val = e.val := by
  have hn : n.val < 10000 := n.isLt
  have hj1 : (j 1).val < 32 := (j 1).isLt
  have hj2 : (j 2).val < 32 := (j 2).isLt
  unfold ScatterDims.resultIdx?
  split
  · rename_i h
    rw [Option.some.injEq]
    constructor
    · intro hf
      have h0 := congrArg Fin.val (congrFun hf 0)
      have h1 := congrArg Fin.val (congrFun hf 1)
      have h2 := congrArg Fin.val (congrFun hf 2)
      have b0 := (h 0).1
      simp only [sd_start0, sd_start1, sd_start2, sd_window0, sd_window1, sd_window2] at h0 h1 h2 b0
      refine ⟨?_, ?_, ?_⟩
      · change ((idx (ix2 (⟨(j 0).val, (j 0).isLt⟩ : Fin 160000) (0 : Fin 1))).toInt + ((0 : ℕ) : ℤ)).toNat = n.val at h0
        omega
      · change ((0 : ℤ) + (((j 1).val : ℕ) : ℤ)).toNat = k.val at h1
        omega
      · change ((0 : ℤ) + (((j 2).val : ℕ) : ℤ)).toNat = e.val at h2
        omega
    · rintro ⟨h0, h1, h2⟩
      funext a
      apply Fin.ext
      match a with
      | ⟨0, _⟩ =>
        show (SD.start j idx 0 + (SD.window j 0 : ℤ)).toNat = n.val
        rw [sd_start0, sd_window0, h0]; omega
      | ⟨1, _⟩ =>
        show (SD.start j idx 1 + (SD.window j 1 : ℤ)).toNat = k.val
        rw [sd_start1, sd_window1]; omega
      | ⟨2, _⟩ =>
        show (SD.start j idx 2 + (SD.window j 2 : ℤ)).toNat = e.val
        rw [sd_start2, sd_window2]; omega
  · rename_i h
    constructor
    · intro hf; exact absurd hf (by simp)
    · rintro ⟨h0, h1, h2⟩
      exfalso
      apply h
      rw [forall_fin3]
      rw [sd_start0, sd_start1, sd_start2, sd_window0, sd_window1, sd_window2, h0]
      refine ⟨⟨?_, ?_⟩, ⟨?_, ?_⟩, ⟨?_, ?_⟩⟩
      · omega
      · show (n.val : ℤ) + ((0 : ℕ) : ℤ) < ((10000 : ℕ) : ℤ); omega
      · omega
      · show (0 : ℤ) + (((j 1).val : ℕ) : ℤ) < ((32 : ℕ) : ℤ); omega
      · omega
      · show (0 : ℤ) + (((j 2).val : ℕ) : ℤ) < ((32 : ℕ) : ℤ); omega

/-- The row indices as a 160000 × 1 column read at (a, 0): edge a's row index. -/
private theorem v12_at (row : (⟨S160000, .i32⟩ : BufTy).Contents (Elt Ideal)) (a : Fin 160000) :
    val_main_v12 (F := Ideal) row (ix2 a (0 : Fin 1)) = row (ix1 a) := by
  rw [val_main_v12_apply]
  refine congrArg row ?_
  funext d; match d with | ⟨0, _⟩ => rfl

/-- The scatter-add at (n, k, e): the operand there plus the updates (j₀, k, e) of the edges j₀ whose row index is n.
    The updates landing on (n, k, e) and those edges correspond by (j₀, k, e) ↔ j₀. -/
private theorem scatter_apply (x : (⟨S10000x32x32, .f32⟩ : BufTy).Contents (Elt Ideal))
    (row : (⟨S160000, .i32⟩ : BufTy).Contents (Elt Ideal))
    (upd : (⟨S160000x32x32, .f32⟩ : BufTy).Contents (Elt Ideal)) (n : Fin 10000) (k e : Fin 32) :
    Host.scatterAdd (F := Ideal) (φ := .f32) SD x (val_main_v12 (F := Ideal) row) upd (ix3 n k e)
      = x (ix3 n k e) + ∑ j₀ ∈ Cert.Spec.inEdges row n.val, upd (ix3 j₀ k e) := by
  unfold Host.scatterAdd
  rw [Ideal.hostScatterAdd_def]
  unfold Ideal.hostScatterAdd
  beta_reduce
  refine congrArg (HAdd.hAdd _) ?_
  unfold Cert.Spec.inEdges
  refine Finset.sum_nbij' (fun j => (⟨(j 0).val, (j 0).isLt⟩ : Fin 160000)) (fun j₀ => ix3 j₀ k e) ?_ ?_ ?_ ?_ ?_
  · intro j hj
    rw [Finset.mem_filter] at hj ⊢
    have h := (sd_result_iff _ j n k e).1 hj.2
    rw [v12_at] at h
    exact ⟨Finset.mem_univ _, h.1⟩
  · intro j₀ hj
    rw [Finset.mem_filter] at hj ⊢
    refine ⟨Finset.mem_univ _, ?_⟩
    rw [sd_result_iff]
    refine ⟨?_, rfl, rfl⟩
    rw [v12_at]
    exact hj.2
  · intro j hj
    rw [Finset.mem_filter] at hj
    have h := (sd_result_iff _ j n k e).1 hj.2
    funext a
    match a with
    | ⟨0, _⟩ => rfl
    | ⟨1, _⟩ => exact Fin.ext h.2.1.symm
    | ⟨2, _⟩ => exact Fin.ext h.2.2.symm
  · intro j₀ hj
    rfl
  · intro j hj
    rw [Finset.mem_filter] at hj
    have h := (sd_result_iff _ j n k e).1 hj.2
    congr 1
    funext a
    match a with
    | ⟨0, _⟩ => rfl
    | ⟨1, _⟩ => exact Fin.ext h.2.1
    | ⟨2, _⟩ => exact Fin.ext h.2.2

/-! ## The gather: which operand element result (j₀, k, e) reads

Axis 0 of the operand is collapsed and start-indexed: the start is edge j₀'s column index, read signed at (j₀, 0) and
clamped into [0, 9999]. Axes 1 and 2 are offset axes of full extent: start 0, offsets k and e. There are no batching
axes. -/

private theorem gd_start0 (idx : IVec S160000x1 32) (j : S160000x32x32.Idx) :
    GD.start j idx 0 = min (idx (ix2 (⟨(j 0).val, (j 0).isLt⟩ : Fin 160000) (0 : Fin 1))).toInt.toNat 9999 := by
  unfold GatherDims.start
  rw [dif_pos (by decide)]
  have hsi : GD.siIdx j ⟨List.idxOf (0 : Fin 3) GD.startIndexMap, List.idxOf_lt_length_iff.2 (by decide)⟩
      = ix2 (⟨(j 0).val, (j 0).isLt⟩ : Fin 160000) (0 : Fin 1) := by
    funext b
    match b with
    | ⟨0, _⟩ => rfl
    | ⟨1, _⟩ => rfl
  rw [hsi]
  rfl

private theorem gd_start1 (idx : IVec S160000x1 32) (j : S160000x32x32.Idx) : GD.start j idx 1 = 0 := by
  unfold GatherDims.start
  rw [dif_neg (by decide)]

private theorem gd_start2 (idx : IVec S160000x1 32) (j : S160000x32x32.Idx) : GD.start j idx 2 = 0 := by
  unfold GatherDims.start
  rw [dif_neg (by decide)]

private theorem gd_batch (j : S160000x32x32.Idx) (a : Fin 3) : GD.batchCoord j a = 0 :=
  GatherDims.batchCoord_eq_zero _ _ _ List.not_mem_nil

private theorem gd_off0 (j : S160000x32x32.Idx) : GD.offCoord j 0 = 0 :=
  GatherDims.offCoord_eq_zero _ _ _ (by decide)

private theorem gd_off1 (j : S160000x32x32.Idx) : GD.offCoord j 1 = (j 1).val := by
  unfold GatherDims.offCoord
  rw [dif_pos (by decide)]
  rfl

private theorem gd_off2 (j : S160000x32x32.Idx) : GD.offCoord j 2 = (j 2).val := by
  unfold GatherDims.offCoord
  rw [dif_pos (by decide)]
  rfl

/-- The gather at (j₀, k, e), when the start index read signed is a node c < 10000 (so the clamp does nothing): the
    operand at (c, k, e). -/
private theorem gather_apply (t : (⟨S10000x32x32, .f32⟩ : BufTy).Contents (Elt Ideal)) (idx : IVec S160000x1 32)
    (j₀ : Fin 160000) (k e : Fin 32) (c : Fin 10000) (hc : (idx (ix2 j₀ (0 : Fin 1))).toInt = (c.val : ℤ)) :
    Host.gather GD t idx (ix3 j₀ k e) = t (ix3 c k e) := by
  have hlt : c.val < 10000 := c.isLt
  unfold Host.gather
  refine congrArg t ?_
  funext a
  apply Fin.ext
  match a with
  | ⟨0, _⟩ =>
    show GD.start (ix3 j₀ k e) idx 0 + GD.batchCoord (ix3 j₀ k e) 0 + GD.offCoord (ix3 j₀ k e) 0 = c.val
    rw [gd_start0, gd_batch, gd_off0]
    show min (idx (ix2 j₀ (0 : Fin 1))).toInt.toNat 9999 + 0 + 0 = c.val
    rw [hc]; omega
  | ⟨1, _⟩ =>
    show GD.start (ix3 j₀ k e) idx 1 + GD.batchCoord (ix3 j₀ k e) 1 + GD.offCoord (ix3 j₀ k e) 1 = k.val
    rw [gd_start1, gd_batch, gd_off1]
    show 0 + 0 + k.val = k.val
    omega
  | ⟨2, _⟩ =>
    show GD.start (ix3 j₀ k e) idx 2 + GD.batchCoord (ix3 j₀ k e) 2 + GD.offCoord (ix3 j₀ k e) 2 = e.val
    rw [gd_start2, gd_batch, gd_off2]
    show 0 + 0 + e.val = e.val
    omega

/-! ## The stages at an index -/

/-- A column index in range is not negative, so the wrap-around of negative indices (add 10000 where the index is
    below 0) leaves it as it is: the start-index column at (j₀, 0) is edge j₀'s column index. -/
private theorem v6_at (col : (⟨S160000, .i32⟩ : BufTy).Contents (Elt Ideal))
    (hcol : ∀ j, 0 ≤ (col j).toInt ∧ (col j).toInt < 10000) (j₀ : Fin 160000) :
    val_main_v6 (F := Ideal) col (ix2 j₀ (0 : Fin 1)) = col (ix1 j₀) := by
  have hidx : idx_main_v6 (ix2 j₀ (0 : Fin 1)) = ix1 j₀ := by
    funext d; match d with | ⟨0, _⟩ => rfl
  rw [val_main_v6_apply, hidx, val_main_v5_apply, val_main_v2_apply, val_main_v1_apply, val_main_c_apply]
  have hs : IntOp.cmpi .slt (col (ix1 j₀)) 0#32 = 0#1 := by
    unfold IntOp.cmpi
    have h0 : (0#32 : BitVec 32).toInt = 0 := by decide
    have hb : (col (ix1 j₀)).slt 0#32 = false := by
      rw [BitVec.slt, decide_eq_false_iff_not, h0]
      have := (hcol (ix1 j₀)).1
      omega
    show BitVec.ofBool ((col (ix1 j₀)).slt 0#32) = 0#1
    rw [hb]; rfl
  rw [hs, select_zero]

/-- The dense product stage at (c, k, e) is the dense product. -/
private theorem feat_at (x : Cert.Spec.SX.Idx → EReal) (w : Cert.Spec.SW.Idx → EReal) (c : Fin 10000) (k e : Fin 32) :
    val_main_v0 (F := Ideal) x w (ix3 c k e) = Cert.Spec.feat x w c k e := by
  rw [val_main_v0_apply]
  unfold Cert.Spec.feat
  refine Finset.sum_congr rfl fun d _ => ?_
  have hl : lidx_main_v0 (ix3 c k e) d = ix3 c k d := funext fun a => by
    match a with
    | ⟨0, _⟩ => rfl
    | ⟨1, _⟩ => rfl
    | ⟨2, _⟩ => rfl
  have hr : ridx_main_v0 (ix3 c k e) d = ix2 d e := funext fun a => by
    match a with
    | ⟨0, _⟩ => rfl
    | ⟨1, _⟩ => rfl
  rw [hl, hr]

/-- The update (j₀, k, e): the dense product at edge j₀'s column node, times the edge's weight. The column index is in
    [0, 10000), so reducing it modulo 10000 gives the index itself. -/
private theorem upd_at (x : Cert.Spec.SX.Idx → EReal) (w : Cert.Spec.SW.Idx → EReal) (col : Cert.Spec.SE.Idx → BitVec 32)
    (val : Cert.Spec.SE.Idx → EReal) (hcol : ∀ j, 0 ≤ (col j).toInt ∧ (col j).toInt < 10000)
    (j₀ : Fin 160000) (k e : Fin 32) :
    val_main_v10 (F := Ideal) x w col val (ix3 j₀ k e)
      = Cert.Spec.feat x w (Cert.Spec.cix col j₀) k e * val (ix1 j₀) := by
  have hc : (val_main_v6 (F := Ideal) col (ix2 j₀ (0 : Fin 1))).toInt = ((Cert.Spec.cix col j₀).val : ℤ) := by
    rw [v6_at col hcol]
    have h := hcol (ix1 j₀)
    show (col (ix1 j₀)).toInt = (((col (ix1 j₀)).toInt.toNat % 10000 : ℕ) : ℤ)
    omega
  have hv : idx_main_v8 (idx_main_v9 (ix3 j₀ k e)) = ix1 j₀ := by
    funext d; match d with | ⟨0, _⟩ => rfl
  rw [val_main_v10_apply, Ideal.mulf_def, val_main_v9_apply, val_main_v8_apply, hv]
  unfold val_main_v7
  rw [gather_apply _ _ j₀ k e (Cert.Spec.cix col j₀) hc, feat_at]

/-- The reference's result stage is G, when every column index is in range. -/
theorem ref_eq_G (x : Cert.Spec.SX.Idx → EReal) (w : Cert.Spec.SW.Idx → EReal) (row col : Cert.Spec.SE.Idx → BitVec 32)
    (val : Cert.Spec.SE.Idx → EReal) (hcol : ∀ j, 0 ≤ (col j).toInt ∧ (col j).toInt < 10000) :
    val_main_v14 (F := Ideal) x w row col val = Cert.Spec.G x w row col val := by
  funext i
  obtain ⟨n, k, e, rfl⟩ : ∃ (n : Fin 10000) (k e : Fin 32), i = ix3 n k e := ⟨i 0, i 1, i 2, eq_ix3 i⟩
  -- the rectifier is the maximum with 0; the scatter-add goes into the zero array
  rw [val_main_v14_apply, Ideal.maximumf_def, val_main_call0_v0_apply, val_main_call0_cst_apply, Ideal.ofBits_def,
    Ideal.ofBits_zero_f32]
  unfold val_main_v13
  rw [scatter_apply, val_main_v11_apply, val_main_cst_apply, Ideal.ofBits_def, Ideal.ofBits_zero_f32,
    Finset.sum_congr rfl fun j₀ _ => upd_at x w col val hcol j₀ k e]
  rfl

end Cert.ReferenceIdeal.RefValue

end
-- ==== Proof.lean ====
/-
  A graph convolution: the dense product h = x · W of the node features, aggregated over the incoming edges,
  out(n) = relu (∑ over the edges (r, c, v) with r = n of v · h(c)).

  The kernel program computes it densely: a first kernel forms h (forty row blocks of the flattened input times the
  weight matrix); the host scatter-adds the edge weights into a zero 10240 × 10240 adjacency matrix A and pads h with zero
  rows to 10240; a second kernel forms relu (A · h) block by block, accumulating 40 column blocks of 256 from zero into
  each output block and applying the rectifier after the last; the first 10000 rows are the result. The reference
  gathers h at the column indices, scales by the edge weights, scatter-adds at the row indices into zero, and applies the
  rectifier.

  Over the extended reals both are one function G of the argument arrays (Proof/Spec.lean) provided every float input
  is finite, no row index is negative and every column index lies in [0, 10000): finiteness makes every number a real,
  so the product with an entry of h distributes over the sum of the weights of the edges sharing a cell of A; the cells of
  row n partition the edges into n; the padded columns of A meet zero rows of h. The three runs terminate without a
  fault and leave the arguments as they were: the two kernel programs by their frames, the reference by its run.
-/
import proofs.«426724_j25752623907270_3_alg».proof.Defs
import proofs.«426724_j25752623907270_3_alg».proof.Proof.Gen.Kernel
import proofs.«426724_j25752623907270_3_alg».proof.Proof.Gen.Kernel.Frame
import proofs.«426724_j25752623907270_3_alg».proof.Proof.Gen.KernelIdeal
import proofs.«426724_j25752623907270_3_alg».proof.Proof.Gen.KernelIdeal.Frame
import proofs.«426724_j25752623907270_3_alg».proof.Proof.Gen.ReferenceIdeal
import proofs.«426724_j25752623907270_3_alg».proof.Proof.Gen.ReferenceIdeal.Run
import proofs.«426724_j25752623907270_3_alg».proof.Proof.Gen.ReferenceIdeal.Read
import proofs.«426724_j25752623907270_3_alg».proof.Proof.Gen.Pre_finite_inputs
import proofs.«426724_j25752623907270_3_alg».proof.Proof.KRun
import proofs.«426724_j25752623907270_3_alg».proof.Proof.KArr
import proofs.«426724_j25752623907270_3_alg».proof.Proof.R0Value
import proofs.«426724_j25752623907270_3_alg».proof.Proof.Host1
import proofs.«426724_j25752623907270_3_alg».proof.Proof.HostPad
import proofs.«426724_j25752623907270_3_alg».proof.Proof.R1Value
import proofs.«426724_j25752623907270_3_alg».proof.Proof.Tail
import proofs.«426724_j25752623907270_3_alg».proof.Proof.Algebra
import proofs.«426724_j25752623907270_3_alg».proof.Proof.PreFacts
import proofs.«426724_j25752623907270_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelValue

open Cert.KernelIdeal Cert.KernelIdeal.Gen Cert.KernelIdeal.KV

/-- Under the precondition the kernel program's result buffer ends holding G of the argument arrays: the tail reads
    the second kernel's result, that is the rectified block-accumulated product of the adjacency matrix and the padded
    dense product, and that product's entries are G's. -/
theorem kernel_value (m : (ℓ : Loc nD τ sig) → Buf (Elt Ideal) ℓ) (ρ : Dev nD → PrngReg) (hpre : Cert.Pre_KernelIdeal m)
    (c : Dev nD) :
    (W5 m ρ c (Proc.devRef .tc main_v23) : Cert.Spec.SO.Idx → EReal)
      = Cert.Spec.G (X m c) (Wt m c) (Row m c) (Col m c) (Val m c) := by
  obtain ⟨hx, hw, hv, hrow, hcol⟩ := Cert.PreFacts.pre_facts (X m c) (Wt m c) (Row m c) (Col m c) (Val m c) (hpre c)
  funext i
  obtain ⟨n, k, e, rfl⟩ : ∃ (n : Fin 10000) (k e : Fin 32), i = ix3 n k e := ⟨i 0, i 1, i 2, eq_ix3 i⟩
  rw [Cert.KernelIdeal.Tail.out_apply, Cert.KernelIdeal.R1Value.final1,
    Cert.KernelIdeal.Host1.adj_eq m ρ c hrow (fun j => (hcol j).1), Cert.KernelIdeal.HostPad.hpad_eq,
    Cert.KernelIdeal.R0Value.final0]
  exact Cert.Algebra.mm_eq_G _ _ _ _ _ hx hw hv hcol n k e

end KernelValue

/-- Both idealized programs end with G of the (agreeing) argument arrays in their result buffers. -/
theorem algebraic : Cert.algebraic_KernelIdeal_ReferenceIdeal := by
  intro m ρ m' ρ' hpre hagree
  refine ⟨fun c => Cert.Spec.G (Cert.KernelIdeal.KV.X m c) (Cert.KernelIdeal.KV.Wt m c) (Cert.KernelIdeal.KV.Row m c)
    (Cert.KernelIdeal.KV.Col m c) (Cert.KernelIdeal.KV.Val m c), ?_, ?_⟩
  · exact (θ_run Cert.KernelIdeal.defs _ _).mono
      (fun _ h c => ⟨(h c).1.trans (kernel_value m ρ hpre c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.Value.run (F := Ideal) m' ρ')
    have hcol := (Cert.PreFacts.pre_facts (Cert.KernelIdeal.KV.X m c) (Cert.KernelIdeal.KV.Wt m c)
      (Cert.KernelIdeal.KV.Row m c) (Cert.KernelIdeal.KV.Col m c) (Cert.KernelIdeal.KV.Val m c) (hpre c)).2.2.2.2
    rw [(hagree c).1, (hagree c).2.1, (hagree c).2.2.1, (hagree c).2.2.2.1, (hagree c).2.2.2.2]
    exact (Cert.ReferenceIdeal.Read.val_main_v14_eq _ _ _ _ _).trans
      (Cert.ReferenceIdeal.RefValue.ref_eq_G _ _ _ _ _ hcol)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
